-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x256 : Shape := ⟨3, ![4096, 2, 256]⟩
abbrev S4096 : Shape := ⟨1, ![4096]⟩
abbrev S_ : Shape := ⟨0, ![]⟩

class Facts : Prop where
  bcast_S_S4096x2x256 : S_.BroadcastsInDim S4096x2x256 (![] : Fin 0 → Fin S4096x2x256.rank)
  reducesTo_S4096x2x256_S_d0_1_2 : S4096x2x256.ReducesTo [0, 1, 2] S_
  h_S_ : 0 < S_.numel

variable [Facts]

def fn {F : FTy → Type} [FloatOps F] (main_arg0 : FVec F S4096x2x256 .f32) (main_arg1 : IVec S4096 32) (main_arg2 : IVec S4096 32) : IVec S_ 1 :=
  let main_v0 : FVec F S4096x2x256 .f32 := Host.absf main_arg0
  let main_cst : FVec F S_ .f32 := constant S_ .f32 0x7F800000#32
  let main_v1 : FVec F S4096x2x256 .f32 := broadcastInDim S4096x2x256 ![] bcast_S_S4096x2x256 main_cst
  let main_v2 : IVec S4096x2x256 1 := cmpf .olt main_v0 main_v1
  let main_c : IVec S_ 1 := constantI S_ 1 1#1
  let main_v3 : IVec S_ 1 := (fun x v => Host.reduce IntOp.andi x v reducesTo_S4096x2x256_S_d0_1_2 h_S_) main_v2 main_c
  main_v3
-- ==== Kernel.lean ====
abbrev S4096x2x256 : Shape := ⟨3, ![4096, 2, 256]⟩
abbrev S4096 : Shape := ⟨1, ![4096]⟩
abbrev S4096x1x256 : Shape := ⟨3, ![4096, 1, 256]⟩
abbrev S4096x256 : Shape := ⟨2, ![4096, 256]⟩
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S128x256 : Shape := ⟨2, ![128, 256]⟩
abbrev S128x1 : Shape := ⟨2, ![128, 1]⟩
abbrev S128 : Shape := ⟨1, ![128]⟩
abbrev S128x8192 : Shape := ⟨2, ![128, 8192]⟩
abbrev S_ : Shape := ⟨0, ![]⟩

abbrev nBuf : Space → Nat
  | .hbm => 20
  | .vmem => 11
  | .smem => 0
  | _ => 0

abbrev bufTy : (tb : Table) → Fin (tcTables nBuf tb) → BufTy
  | .hbm, ⟨0, _⟩ => ⟨S4096x2x256, .f32⟩
  | .hbm, ⟨1, _⟩ => ⟨S4096, .i32⟩
  | .hbm, ⟨2, _⟩ => ⟨S4096, .i32⟩
  | .hbm, ⟨3, _⟩ => ⟨S4096x1x256, .f32⟩
  | .hbm, ⟨4, _⟩ => ⟨S4096x256, .f32⟩
  | .hbm, ⟨5, _⟩ => ⟨S4096x1x256, .f32⟩
  | .hbm, ⟨6, _⟩ => ⟨S4096x256, .f32⟩
  | .hbm, ⟨7, _⟩ => ⟨S8192x256, .f32⟩
  | .hbm, ⟨8, _⟩ => ⟨S8192x256, .bf16⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S8192x1, .i32⟩
  | .hbm, ⟨13, _⟩ => ⟨S1x8192, .i32⟩
  | .hbm, ⟨14, _⟩ => ⟨S1x8192, .i32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S128x256, .bf16⟩
  | .local _ .vmem, ⟨1, _⟩ => ⟨S128x256, .bf16⟩
  | .local _ .vmem, ⟨2, _⟩ => ⟨S8192x256, .bf16⟩
  | .local _ .vmem, ⟨3, _⟩ => ⟨S128x1, .i32⟩
  | .local _ .vmem, ⟨4, _⟩ => ⟨S128x1, .i32⟩
  | .local _ .vmem, ⟨5, _⟩ => ⟨S128x1, .i32⟩
  | .local _ .vmem, ⟨6, _⟩ => ⟨S128x1, .i32⟩
  | .local _ .vmem, ⟨7, _⟩ => ⟨S1x8192, .i32⟩
  | .local _ .vmem, ⟨8, _⟩ => ⟨S1x8192, .i32⟩
  | .local _ .vmem, ⟨9, _⟩ => ⟨S128, .f32⟩
  | .local _ .vmem, ⟨10, _⟩ => ⟨S128, .f32⟩
  | _, _ => ⟨S4096x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S4096x2x256_S4096x1x256_0_0_0 : S4096x2x256.Slices ![0, 0, 0] S4096x1x256
  shapeCasts_S4096x1x256_S4096x256 : S4096x1x256.ShapeCasts S4096x256
  slices_S4096x2x256_S4096x1x256_0_1_0 : S4096x2x256.Slices ![0, 1, 0] S4096x1x256
  concatenates_S4096x256_S4096x256_S8192x256_d0 : Shape.Concatenates [S4096x256, S4096x256] S8192x256 0
  bitsLt_bf16_f32 : FTy.bits .bf16 < FTy.bits .f32
  concatenates_S4096_S4096_S8192_d0 : Shape.Concatenates [S4096, S4096] S8192 0
  shapeCasts_S8192_S8192x1 : S8192.ShapeCasts S8192x1
  shapeCasts_S8192_S1x8192 : S8192.ShapeCasts S1x8192
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  iota_S128x1_d0_w32 : S128x1.Iotas .tc 32 [0]
  iota_S1x8192_d1_w32 : S1x8192.Iotas .tc 32 [1]
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  natLt_1_32 : 1 < 32
  shapeCasts_S128x1_S128 : S128x1.ShapeCasts S128
  inb_S128_S128_0 : ∀ a, (![0] : Fin 1 → Nat) a + S128.size a ≤ S128.size a
  h_S128 : 0 < S128.numel
  reducesTo_S8192_S_d0 : S8192.ReducesTo [0] S_
  h_S_ : 0 < S_.numel
  dot_S128x256_S8192x256_S128x8192_1_1_0_0_n_n_wf : DotDims.WF S128x256 S8192x256 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S8192x256.size a
  hwx0_0 : ∀ i : grid0.Coords, EltTy.bits .bf16 = 32 ∨ (Rect.block (s := S8192x256) S128x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S8192x1.size a
  hwx0_3 : ∀ i : grid0.Coords, EltTy.bits .i32 = 32 ∨ (Rect.block (s := S8192x1) S128x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .i32 = 32 ∨ (Rect.block (s := S1x8192) S1x8192.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .i32 = 32 ∨ (Rect.block (s := S1x8192) S1x8192.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S8192.size a
  hwx0_6 : ∀ i : grid0.Coords, EltTy.bits .f32 = 32 ∨ (Rect.block (s := S8192) S128.size (cc0_transform_6 i) (hinb0_6 i)).WholeWords (EltTy.packing .f32)

variable [Facts₀]

def dot_S128x256_S8192x256_S128x8192_1_1_0_0_n_n : DotDims S128x256 S8192x256 S128x8192 where
  lhsContracting := [1]
  rhsContracting := [1]
  lhsNonContracting := [0]
  rhsNonContracting := [0]
  lhsBatch := []
  rhsBatch := []
  wf := dot_S128x256_S8192x256_S128x8192_1_1_0_0_n_n_wf

abbrev win0_0 : Pipeline.Window sig grid0 :=
  Pipeline.Window.ofSpec (Memref.whole main_v5) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x2x256 : Shape := ⟨3, ![4096, 2, 256]⟩
abbrev S4096 : Shape := ⟨1, ![4096]⟩
abbrev S4096x1x256 : Shape := ⟨3, ![4096, 1, 256]⟩
abbrev S4096x256 : Shape := ⟨2, ![4096, 256]⟩
abbrev S8192x256 : Shape := ⟨2, ![8192, 256]⟩
abbrev S256x8192 : Shape := ⟨2, ![256, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S4096x1 : Shape := ⟨2, ![4096, 1]⟩
abbrev S1x4096 : Shape := ⟨2, ![1, 4096]⟩
abbrev S4096x4096 : Shape := ⟨2, ![4096, 4096]⟩
abbrev S1x4096x1x4096 : Shape := ⟨4, ![1, 4096, 1, 4096]⟩
abbrev S2x4096x2x4096 : Shape := ⟨4, ![2, 4096, 2, 4096]⟩

abbrev nBuf : Space → Nat
  | .hbm => 119
  | .vmem => 0
  | .smem => 0
  | _ => 0

abbrev bufTy : (tb : Table) → Fin (tcTables nBuf tb) → BufTy
  | .hbm, ⟨0, _⟩ => ⟨S4096x2x256, .f32⟩
  | .hbm, ⟨1, _⟩ => ⟨S4096, .i32⟩
  | .hbm, ⟨2, _⟩ => ⟨S4096, .i32⟩
  | .hbm, ⟨3, _⟩ => ⟨S4096x1x256, .f32⟩
  | .hbm, ⟨4, _⟩ => ⟨S4096x256, .f32⟩
  | .hbm, ⟨5, _⟩ => ⟨S4096x1x256, .f32⟩
  | .hbm, ⟨6, _⟩ => ⟨S4096x256, .f32⟩
  | .hbm, ⟨7, _⟩ => ⟨S8192x256, .f32⟩
  | .hbm, ⟨8, _⟩ => ⟨S256x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S4096x1, .i32⟩
  | .hbm, ⟨30, _⟩ => ⟨S1x4096, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S4096x1, .i32⟩
  | .hbm, ⟨35, _⟩ => ⟨S1x4096, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S1x4096x1x4096, .i1⟩
  | .hbm, ⟨40, _⟩ => ⟨S2x4096x2x4096, .i1⟩
  | .hbm, ⟨41, _⟩ => ⟨S8192x8192, .i1⟩
  | .hbm, ⟨42, _⟩ => ⟨S4096x4096, .i1⟩
  | .hbm, ⟨43, _⟩ => ⟨S1x4096x1x4096, .i1⟩
  | .hbm, ⟨44, _⟩ => ⟨S2x4096x2x4096, .i1⟩
  | .hbm, ⟨45, _⟩ => ⟨S8192x8192, .i1⟩
  | .hbm, ⟨46, _⟩ => ⟨S8192x8192, .i1⟩
  | .hbm, ⟨47, _⟩ => ⟨S8192x8192, .i1⟩
  | .hbm, ⟨48, _⟩ => ⟨S8192x8192, .i1⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S8192x8192, .i32⟩
  | .hbm, ⟨67, _⟩ => ⟨S_, .i32⟩
  | .hbm, ⟨68, _⟩ => ⟨S8192, .i32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S8192x8192, .i1⟩
  | .hbm, ⟨81, _⟩ => ⟨S8192x8192, .i1⟩
  | .hbm, ⟨82, _⟩ => ⟨S8192x8192, .i1⟩
  | .hbm, ⟨83, _⟩ => ⟨S_, .f32⟩
  | .hbm, ⟨84, _⟩ => ⟨S_, .f32⟩
  | .hbm, ⟨85, _⟩ => ⟨S8192x8192, .f32⟩
  | .hbm, ⟨86, _⟩ => ⟨S8192x8192, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x8192, .f32⟩
  | .hbm, ⟨91, _⟩ => ⟨S8192x8192, .f32⟩
  | .hbm, ⟨92, _⟩ => ⟨S_, .f32⟩
  | .hbm, ⟨93, _⟩ => ⟨S_, .f32⟩
  | .hbm, ⟨94, _⟩ => ⟨S8192x8192, .f32⟩
  | .hbm, ⟨95, _⟩ => ⟨S8192x8192, .f32⟩
  | .hbm, ⟨96, _⟩ => ⟨S8192x8192, .f32⟩
  | .hbm, ⟨97, _⟩ => ⟨S8192x8192, .f32⟩
  | .hbm, ⟨98, _⟩ => ⟨S8192x8192, .f32⟩
  | .hbm, ⟨99, _⟩ => ⟨S8192x8192, .f32⟩
  | .hbm, ⟨100, _⟩ => ⟨S8192x8192, .i32⟩
  | .hbm, ⟨101, _⟩ => ⟨S_, .i32⟩
  | .hbm, ⟨102, _⟩ => ⟨S8192, .i32⟩
  | .hbm, ⟨103, _⟩ => ⟨S8192, .f32⟩
  | .hbm, ⟨104, _⟩ => ⟨S_, .f32⟩
  | .hbm, ⟨105, _⟩ => ⟨S_, .f32⟩
  | .hbm, ⟨106, _⟩ => ⟨S8192x8192, .f32⟩
  | .hbm, ⟨107, _⟩ => ⟨S8192x8192, .f32⟩
  | .hbm, ⟨108, _⟩ => ⟨S_, .f32⟩
  | .hbm, ⟨109, _⟩ => ⟨S8192, .f32⟩
  | .hbm, ⟨110, _⟩ => ⟨S8192, .f32⟩
  | .hbm, ⟨111, _⟩ => ⟨S_, .f32⟩
  | .hbm, ⟨112, _⟩ => ⟨S8192, .f32⟩
  | .hbm, ⟨113, _⟩ => ⟨S8192, .f32⟩
  | .hbm, ⟨114, _⟩ => ⟨S8192, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S4096x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_2 : Ref sig .tc := ⟨.hbm, 49, rfl⟩
abbrev main_call1_v0 : Ref sig .tc := ⟨.hbm, 50, rfl⟩
abbrev main_call1_v1 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_call2_v0 : Ref sig .tc := ⟨.hbm, 59, rfl⟩
abbrev main_call2_v1 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_5 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_call3_v0 : Ref sig .tc := ⟨.hbm, 71, rfl⟩
abbrev main_call3_v1 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_call4_v0 : Ref sig .tc := ⟨.hbm, 84, rfl⟩
abbrev main_call4_v1 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_call5_v0 : Ref sig .tc := ⟨.hbm, 93, rfl⟩
abbrev main_call5_v1 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_12 : Ref sig .tc := ⟨.hbm, 101, rfl⟩
abbrev main_v72 : Ref sig .tc := ⟨.hbm, 102, rfl⟩
abbrev main_v73 : Ref sig .tc := ⟨.hbm, 103, rfl⟩
abbrev main_cst_13 : Ref sig .tc := ⟨.hbm, 104, rfl⟩
abbrev main_call6_v0 : Ref sig .tc := ⟨.hbm, 105, rfl⟩
abbrev main_call6_v1 : Ref sig .tc := ⟨.hbm, 106, rfl⟩
abbrev main_v74 : Ref sig .tc := ⟨.hbm, 107, rfl⟩
abbrev main_cst_14 : Ref sig .tc := ⟨.hbm, 108, rfl⟩
abbrev main_v75 : Ref sig .tc := ⟨.hbm, 109, rfl⟩
abbrev main_v76 : Ref sig .tc := ⟨.hbm, 110, rfl⟩
abbrev main_cst_15 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_16 : Ref sig .tc := ⟨.hbm, 115, rfl⟩
abbrev main_v80 : Ref sig .tc := ⟨.hbm, 116, rfl⟩
abbrev main_cst_17 : Ref sig .tc := ⟨.hbm, 117, rfl⟩
abbrev main_v81 : Ref sig .tc := ⟨.hbm, 118, rfl⟩

abbrev nD : Nat := 1
abbrev τ : Topo := Topo.v7x

variable {F : FTy → Type} [FloatOps F]

class Facts₀ : Prop where
  slices_S4096x2x256_S4096x1x256_0_0_0 : S4096x2x256.Slices ![0, 0, 0] S4096x1x256
  shapeCasts_S4096x1x256_S4096x256 : S4096x1x256.ShapeCasts S4096x256
  slices_S4096x2x256_S4096x1x256_0_1_0 : S4096x2x256.Slices ![0, 1, 0] S4096x1x256
  concatenates_S4096x256_S4096x256_S8192x256_d0 : Shape.Concatenates [S4096x256, S4096x256] S8192x256 0
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  shapeCasts_S4096x4096_S1x4096x1x4096 : S4096x4096.ShapeCasts S1x4096x1x4096
  bcast_S1x4096x1x4096_S2x4096x2x4096_0_1_2_3 : S1x4096x1x4096.BroadcastsInDim S2x4096x2x4096 (![0, 1, 2, 3] : Fin 4 → Fin S2x4096x2x4096.rank)
  shapeCasts_S2x4096x2x4096_S8192x8192 : S2x4096x2x4096.ShapeCasts S8192x8192
  natLt_1_32 : 1 < 32
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KPay.lean ====
/-
  What the kernel's body stores at a grid point, as one function of the point and of the six blocks it loads:
  the query rows, all key rows, the rows' labels and camera ids (a column each) and all labels and camera ids
  (a row each).
-/
import proofs.«410527_j80101140070638_3_alg».proof.Proof.Gen.Kernel.Skeleton

noncomputable section

namespace Cert.Kernel.Hand

open Cert.Kernel Cert.Kernel.Gen Idealize.ShloMosaic Idealize.SL.Sem

variable {F : FTy → Type} [FloatOps F]

/-- The 128 row losses of the point's rows: the body's payloads composed as its three parts pass them on. -/
def outPay (i : grid0.Coords) (q : Vec F S128x256 .bf16) (k : Vec F S8192x256 .bf16) (lr cr : Vec F S128x1 .i32)
    (lc cc : Vec F S1x8192 .i32) : FVec F S128 .f32 :=
  k0_pay1 (k0_pay3 i q k) (k0_pay9 (k0_pay3 i q k) (k0_pay4 i q k) (k0_pay7 i lr lc) (k0_pay8 lr lc))
    (k0_pay10 (k0_pay2 i) (k0_pay6 lr cr lc cc)) (k0_pay11 (k0_pay2 i) (k0_pay4 i q k) (k0_pay6 lr cr lc cc))

end Cert.Kernel.Hand

end
-- ==== Proof.KData.lean ====
/-
  The proof data of the kernel's one pipeline.

  The program first stacks the two views of the features into 8192 rows, rounds them to the short float format, repeats
  the labels and camera ids for the second view and lays each out as a column and as a row; the pipeline then visits 64
  points, staging at point t the query rows 128 t to 128 t + 127 (window 0), all key rows (window 1: the SAME array as
  window 0, fetched once), those rows' labels and camera ids (windows 2 and 3), all labels and camera ids (windows 4 and
  5, fetched once), and writing back the 128 row losses (window 6).  The two windows on one array each hold half of it.
-/
import proofs.«410527_j80101140070638_3_alg».proof.Proof.Gen.Kernel.Launch
import proofs.«410527_j80101140070638_3_alg».proof.Proof.Gen.Kernel.Points
import proofs.«410527_j80101140070638_3_alg».proof.Proof.Gen.Kernel.Skeleton
import proofs.«410527_j80101140070638_3_alg».proof.Proof.KPay
import Idealize.ShloMosaic.Lib.Pipeline.FrameBody
import Idealize.ShloMosaic.Lib.Pipeline.Frame
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents before the region -/

/-- Core c's buffers at launch. -/
abbrev W0 (c : Dev nD) : Valuation τ sig (Elt F) := fun b => m (c, b)
/-- After the host operations before the region. -/
abbrev W1 (c : Dev nD) : Valuation τ sig (Elt F) := StableHlo.after hostOps0 (W0 m c)
/-- The same read at the TensorCore's references: what the region is entered with. -/
abbrev V1 (c : Dev nD) (b : Ref sig .tc) : Buf (Elt F) ((c : Thread nD τ).loc b) := W1 m c b

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-! ## The body's accesses: each buffer whole -/

abbrev rQ : Rect S128x256 := Rect.unit (s := S128x256) ![0, 0] S128x256.size inb_S128x256_S128x256_0_0
abbrev rK : Rect S8192x256 := Rect.unit (s := S8192x256) ![0, 0] S8192x256.size inb_S8192x256_S8192x256_0_0
abbrev rCol : Rect S128x1 := Rect.unit (s := S128x1) ![0, 0] S128x1.size inb_S128x1_S128x1_0_0
abbrev rRow : Rect S1x8192 := Rect.unit (s := S1x8192) ![0, 0] S1x8192.size inb_S1x8192_S1x8192_0_0
abbrev rOut : Rect S128 := Rect.unit (s := S128) ![0] S128.size inb_S128_S128_0

/-- The result window's staging buffer after the body, from the point and the six input blocks: its one store. -/
def out6 (i : grid0.Coords) (x0 : Vec F S128x256 .bf16) (x1 : Vec F S8192x256 .bf16) (x2 x3 : Vec F S128x1 .i32)
    (x4 x5 : Vec F S1x8192 .i32) : Vec F S128 .f32 :=
  View.canon [⟨rOut, outPay i (View.ld x0 rQ) (View.ld x1 rK) (View.ld x2 rCol) (View.ld x3 rCol) (View.ld x4 rRow) (View.ld x5 rRow)⟩]

/-- The one store covers the buffer. -/
theorem cover6 (p0 : Vec F S128 .f32) (y : S128.Idx) :
    ∃ pc ∈ ([⟨rOut, p0⟩] : List (View.Piece (Elt F) S128 .f32)), y ∈ pc.1.set :=
  View.cover_of_tiled [⟨rOut, p0⟩] S128.size (by rfl) y

/-! ## The proof data -/

/-- The arrays as the region finds them; after the body at point t each input's buffer at its block and the result's at
    the body's store; the class invariant; nothing owed; the two windows on the stacked features half of it each. -/
def dat (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (grid0.coords t) (iblk m c 0 t) (iblk m c 1 t) (iblk m c 2 t) (iblk m c 3 t) (iblk m c 4 t) (iblk m c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dat m c).A w = V1 m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t
    = out6 (grid0.coords t) (iblk m c 0 t) (iblk m c 1 t) (iblk m c 2 t) (iblk m c 3 t) (iblk m c 4 t) (iblk m c 5 t) := by
  dsimp only [dat]

end Cert.Kernel.Hand

end
-- ==== Proof.KBody.lean ====
/-
  The kernel body's obligation at every grid point: run on the point's staging buffers, the six inputs' holding their
  blocks and the result's holding anything, the body leaves the inputs' as they were and the result's at its one store.
-/
import proofs.«410527_j80101140070638_3_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each input's staging buffer holds when the body runs

An input window's block is left in place by the body, so whether the pipeline fetched the window at the point or not
its current buffer holds the point's block: fetched, the fetch put it there; not fetched, the block index has not moved
since the last fetch and nothing wrote the buffer in between.  The query rows and their label and camera columns move
with the point; the key rows and the label and camera rows are the whole arrays, fetched once at the first point. -/

/-- The query rows' buffer holds rows 128 t to 128 t + 127 of the stacked features. -/
theorem before_0 (c : Dev nD) (t : Fin cfg0.N) (d) : (dat m c).before 0 t d = iblk m c 0 t :=
  ((dat m c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- The key rows' buffer holds all 8192 rows of the stacked features, at every point. -/
theorem before_1 (c : Dev nD) (t : Fin cfg0.N) (d) : (dat m c).before 1 t d = iblk m c 1 t :=
  ((dat m c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The label column's buffer holds the point's 128 labels. -/
theorem before_2 (c : Dev nD) (t : Fin cfg0.N) (d) : (dat m c).before 2 t d = iblk m c 2 t :=
  ((dat m c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- The camera column's buffer holds the point's 128 camera ids. -/
theorem before_3 (c : Dev nD) (t : Fin cfg0.N) (d) : (dat m c).before 3 t d = iblk m c 3 t :=
  ((dat m c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- The label row's buffer holds all 8192 labels, at every point. -/
theorem before_4 (c : Dev nD) (t : Fin cfg0.N) (d) : (dat m c).before 4 t d = iblk m c 4 t :=
  ((dat m c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- The camera row's buffer holds all 8192 camera ids, at every point. -/
theorem before_5 (c : Dev nD) (t : Fin cfg0.N) (d) : (dat m c).before 5 t d = iblk m c 5 t :=
  ((dat m c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body's triple -/

set_option maxHeartbeats 1000000 in
/-- The body on seven whole buffers, the six inputs' reading `x0 … x5` and the result's holding anything, runs without
    fault to the continuation, which gets the six inputs' buffers back as they were and the result's buffer at `out6`
    of the coordinates and the inputs.  The body is its first part's six whole loads, its second part's arithmetic, a
    load of the result's buffer whose value nothing reads, and one store over all 128 entries: so what the result's
    buffer held before is overwritten everywhere, and its contents are the store's payload, which is `outPay` of the
    six loaded vectors by the way the parts hand their values on. -/
theorem sound_kernel (c : Dev nD) (E : Set ℕ) (i : grid0.Coords)
    (aQ : Memref sig .tc .vmem S128x256 .bf16) (hQ : aQ.IsWhole) (aK : Memref sig .tc .vmem S8192x256 .bf16) (hK : aK.IsWhole)
    (aLc : Memref sig .tc .vmem S128x1 .i32) (hLc : aLc.IsWhole) (aCc : Memref sig .tc .vmem S128x1 .i32) (hCc : aCc.IsWhole)
    (aLr : Memref sig .tc .vmem S1x8192 .i32) (hLr : aLr.IsWhole) (aCr : Memref sig .tc .vmem S1x8192 .i32) (hCr : aCr.IsWhole)
    (aO : Memref sig .tc .vmem S128 .f32) (hO : aO.IsWhole)
    (x0 : Vec F S128x256 .bf16) (x1 : Vec F S8192x256 .bf16) (x2 x3 : Vec F S128x1 .i32) (x4 x5 : Vec F S1x8192 .i32)
    (K : PUnit → sProp 𝕄) :
    iprop(owns (c : Thread nD τ) aQ fullShare x0 ∗ owns (c : Thread nD τ) aK fullShare x1
        ∗ owns (c : Thread nD τ) aLc fullShare x2 ∗ owns (c : Thread nD τ) aCc fullShare x3
        ∗ owns (c : Thread nD τ) aLr fullShare x4 ∗ owns (c : Thread nD τ) aCr fullShare x5
        ∗ (∃ d, owns (c : Thread nD τ) aO fullShare d)
        ∗ (iprop(owns (c : Thread nD τ) aQ fullShare x0 ∗ owns (c : Thread nD τ) aK fullShare x1
            ∗ owns (c : Thread nD τ) aLc fullShare x2 ∗ owns (c : Thread nD τ) aCc fullShare x3
            ∗ owns (c : Thread nD τ) aLr fullShare x4 ∗ owns (c : Thread nD τ) aCr fullShare x5
            ∗ owns (c : Thread nD τ) aO fullShare (out6 i x0 x1 x2 x3 x4 x5)) -∗ K ⟨⟩))
      ⊢ wp frame (wpE (defs₀ (F := F)) Variants.none c none) E
          (cc0__scl_kernel i aQ hQ aK hK aLc hLc aCc hCc aLr hLr aCr hCr aO hO) K := by
  simp only [cc0__scl_kernel_eq_skeleton]; unfold cc0__scl_kernel_skel
  simp only [k0_part1_eq_skeleton, k0_part2_eq_skeleton]; unfold k0_part1_skel k0_part2_skel
  unfold owns
  iintro ⟨⟨%fQ, %eQ, HQ⟩, ⟨%fK, %eK, HK⟩, ⟨%fLc, %eLc, HLc⟩, ⟨%fCc, %eCc, HCc⟩, ⟨%fLr, %eLr, HLr⟩, ⟨%fCr, %eCr, HCr⟩,
    ⟨%dO, %fO, -, HO⟩, Hk⟩
  subst eQ eK eLc eCc eLr eCr
  sl_exec
  sl_step
  iapply Hk
  isplitl [HQ]
  · iexists fQ; isplitr; · ipureintro; rfl
    iexact HQ
  isplitl [HK]
  · iexists fK; isplitr; · ipureintro; rfl
    iexact HK
  isplitl [HLc]
  · iexists fLc; isplitr; · ipureintro; rfl
    iexact HLc
  isplitl [HCc]
  · iexists fCc; isplitr; · ipureintro; rfl
    iexact HCc
  isplitl [HLr]
  · iexists fLr; isplitr; · ipureintro; rfl
    iexact HLr
  isplitl [HCr]
  · iexists fCr; isplitr; · ipureintro; rfl
    iexact HCr
  iexists _; isplitr
  swap; · iexact HO
  ipureintro
  exact View.read_writes_eq_canon _ _ _ (cover6 _)

/-! ## The body at a grid point -/

/-- What the pipeline hands the body at point `t`: the invariant, the core's tallies, and each window's current
    staging buffer at what it then holds. -/
def heldBefore (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d)))

/-- What it takes back: the same invariant and tallies, and each buffer at what the proof data say the body leaves. -/
def heldAfter (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t))

/-- The body at point `t`.  Each input's buffer holds the point's block (`before_0 … before_5`), the result's holds
    whatever the last write-back left; so the body's triple applies at the point's coordinates and the seven current
    buffers, and what it returns is what the proof data name: the blocks again, and `out6` of the coordinates and the
    blocks.  The invariant and the tallies are the same at every point and the body touches neither. -/
theorem sound_at (c : Dev nD) (t : Fin cfg0.N) :
    heldBefore m c t ⊢ wp frame (wpE (defs₀ (F := F)) Variants.none c none) Set.univ (bodyAt0 t) (fun _ => heldAfter m c t) := by
  unfold heldBefore heldAfter bodyAt0
  simp only [before_0, before_1, before_2, before_3, before_4, before_5]
  rw [show (dat m c).Φ t.succ = (dat m c).Φ t.castSucc from rfl,
    show (dat m c).owesAt () t.succ = (dat m c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (iblk m c 0 t) (iblk m c 1 t) (iblk m c 2 t) (iblk m c 3 t) (iblk m c 4 t) (iblk m c 5 t)
    (fun _ => iprop((dat m c).Φ t.castSucc ∗ (dat m c).owesAt () t.castSucc
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ owns (c : Thread nD τ) (st0_5 t) fullShare (iblk m c 5 t)
      ∗ owns (c : Thread nD τ) (st0_6 t) fullShare
          (out6 (grid0.coords t) (iblk m c 0 t) (iblk m c 1 t) (iblk m c 2 t) (iblk m c 3 t) (iblk m c 4 t) (iblk m c 5 t)))))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the proof data `dat`, at every point. -/
theorem body_obligation (c : Dev nD) :
    BodyObligation (dat (F := F) m c) (defs₀ (F := F)) Variants.none () Set.univ := fun t => by
  rw [bigSep_W0, bigSep_W0]
  exact sound_at m c t

end Cert.Kernel.Hand

end
-- ==== Proof.KRun.lean ====
/-
  The run of the whole program: the host operations before the region, the pipeline, the host operations after it.

  Between two items every unscoped buffer of a core is held whole at a valuation: the launch memory, then that after the
  first host stretch, then the same with the result array at what the pipeline leaves, then that after the second
  stretch.  Entering the region, the buffers behind the seven windows' arrays (six buffers: the stacked features serve
  two windows) become the pipeline's arrays, the stacked features' buffer cut in two halves, one per window; leaving
  it the halves are joined again.  Every weakly fair execution terminates, and the final memory holds every unscoped
  buffer at the last valuation.
-/
import proofs.«410527_j80101140070638_3_alg».proof.Proof.KBody
import Idealize.ShloMosaic.Lib.Pipeline.Kit
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the windows' arrays -/

/-- The seven windows' arrays are six buffers. -/
theorem arrRefs_eq : Finset.univ.image (Pipeline.arrRef spec0) = [main_v5, main_v8, main_v9, main_v10, main_v11, main_v12].toFinset := by
  decide

/-- Those buffers one by one. -/
theorem arrBufs_list (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v5) ↦{fullShare} V main_v5) ∗ (((c : Thread nD τ).loc main_v8) ↦{fullShare} V main_v8)
          ∗ (((c : Thread nD τ).loc main_v9) ↦{fullShare} V main_v9) ∗ (((c : Thread nD τ).loc main_v10) ↦{fullShare} V main_v10)
          ∗ (((c : Thread nD τ).loc main_v11) ↦{fullShare} V main_v11) ∗ (((c : Thread nD τ).loc main_v12) ↦{fullShare} V main_v12)) := by
  unfold Pipeline.arrBufs
  exact (bigSep_eq_bigSepL_of_eq [main_v5, main_v8, main_v9, main_v10, main_v11, main_v12] arrRefs_eq (by decide) _).trans rfl

/-- ENTRY: the six buffers, each whole, are the pipeline's arrays at their entry contents: the stacked features'
    buffer halved between the query window and the key window. -/
theorem arrays_entry (c : Dev nD) :
    (Pipeline.arrBufs (Ix := Unit) (Name := ℕ) (U := UR sig nD τ) (Lvl := ℕ) spec0 c (V1 m c) : sProp 𝕄)
      ⊢ (dat m c).arrays ((dat m c).arrAt · 0) := by
  have e0 : (View.loc c.tc (cfg0.win 0).arr.view ↦[(cfg0.win 0).arr.view.set]{(dat m c).share 0} (dat m c).arrAt 0 0 : sProp 𝕄)
      = ((c : Thread nD τ).loc main_v5 ↦{fullShare.left} V1 m c main_v5) := by
    rw [(arr_whole0 0).set_eq_univ]; rfl
  have e1 : (View.loc c.tc (cfg0.win 1).arr.view ↦[(cfg0.win 1).arr.view.set]{(dat m c).share 1} (dat m c).arrAt 1 0 : sProp 𝕄)
      = ((c : Thread nD τ).loc main_v5 ↦{fullShare.right} V1 m c main_v5) := by
    rw [(arr_whole0 1).set_eq_univ]; rfl
  have e2 : (View.loc c.tc (cfg0.win 2).arr.view ↦[(cfg0.win 2).arr.view.set]{(dat m c).share 2} (dat m c).arrAt 2 0 : sProp 𝕄)
      = ((c : Thread nD τ).loc main_v8 ↦{fullShare} V1 m c main_v8) := by
    rw [(arr_whole0 2).set_eq_univ]; rfl
  have e3 : (View.loc c.tc (cfg0.win 3).arr.view ↦[(cfg0.win 3).arr.view.set]{(dat m c).share 3} (dat m c).arrAt 3 0 : sProp 𝕄)
      = ((c : Thread nD τ).loc main_v9 ↦{fullShare} V1 m c main_v9) := by
    rw [(arr_whole0 3).set_eq_univ]; rfl
  have e4 : (View.loc c.tc (cfg0.win 4).arr.view ↦[(cfg0.win 4).arr.view.set]{(dat m c).share 4} (dat m c).arrAt 4 0 : sProp 𝕄)
      = ((c : Thread nD τ).loc main_v10 ↦{fullShare} V1 m c main_v10) := by
    rw [(arr_whole0 4).set_eq_univ]; rfl
  have e5 : (View.loc c.tc (cfg0.win 5).arr.view ↦[(cfg0.win 5).arr.view.set]{(dat m c).share 5} (dat m c).arrAt 5 0 : sProp 𝕄)
      = ((c : Thread nD τ).loc main_v11 ↦{fullShare} V1 m c main_v11) := by
    rw [(arr_whole0 5).set_eq_univ]; rfl
  have e6 : (View.loc c.tc (cfg0.win 6).arr.view ↦[(cfg0.win 6).arr.view.set]{(dat m c).share 6} (dat m c).arrAt 6 0 : sProp 𝕄)
      = ((c : Thread nD τ).loc main_v12 ↦{fullShare} V1 m c main_v12) := by
    rw [(arr_whole0 6).set_eq_univ]; rfl
  rw [arrBufs_list]
  unfold Dat.arrays
  rw [bigSep_W0]
  beta_reduce
  rw [e0, e1, e2, e3, e4, e5, e6]
  iintro ⟨H5, H8, H9, H10, H11, H12⟩
  ihave H5' := (pointsTo_share (PosShare.mem_left_op_right fullShare)).1 $$ H5
  icases H5' with ⟨H5l, H5r⟩
  isplitl [H5l]; · iexact H5l
  isplitl [H5r]; · iexact H5r
  isplitl [H8]; · iexact H8
  isplitl [H9]; · iexact H9
  isplitl [H10]; · iexact H10
  isplitl [H11]; · iexact H11
  iexact H12

/-! ## After the region -/

/-- What the pipeline leaves in the result array: its write-backs folded. -/
def outArr (c : Dev nD) : Buf (Elt F) ((c : Thread nD τ).loc main_v12) := (dat m c).arrAt 6 cfg0.N

/-- Core c's buffers when the region is left: as entered, the result array at what the pipeline leaves. -/
def W2 (c : Dev nD) : Valuation τ sig (Elt F) := Function.update (W1 m c) (Proc.devRef .tc main_v12) (outArr m c)
/-- The same read at the TensorCore's references. -/
abbrev V2 (c : Dev nD) (b : Ref sig .tc) : Buf (Elt F) ((c : Thread nD τ).loc b) := W2 m c b
/-- After the host operations after the region. -/
abbrev W3 (c : Dev nD) : Valuation τ sig (Elt F) := StableHlo.after hostOps1 (W2 m c)

theorem V2_out (c : Dev nD) : V2 m c main_v12 = outArr m c := by
  show Function.update (W1 m c) (Proc.devRef .tc main_v12) (outArr m c) (Proc.devRef .tc main_v12) = _
  exact Function.update_self _ _ _
theorem V2_of_ne (c : Dev nD) (b : Ref sig .tc) (h : b ≠ main_v12) : V2 m c b = V1 m c b := by
  show Function.update (W1 m c) (Proc.devRef .tc main_v12) (outArr m c) (Proc.devRef .tc b) = W1 m c (Proc.devRef .tc b)
  exact Function.update_of_ne (StableHlo.devRef_ne_of_ne h) _ _

/-- No buffer outside the windows' arrays changes across the region. -/
theorem rest_eq (c : Dev nD) :
    (Pipeline.unscopedRest (Ix := Unit) (Name := ℕ) (U := UR sig nD τ) (Lvl := ℕ) spec0 c (V2 m c) : sProp 𝕄)
      = Pipeline.unscopedRest spec0 c (V1 m c) := by
  unfold Pipeline.unscopedRest
  exact bigSep_congr fun b hb => by
    rw [V2_of_ne m c b fun e => (Finset.mem_sdiff.mp hb).2 (Finset.mem_image.mpr ⟨6, Finset.mem_univ _, by rw [e]⟩)]

/-- EXIT: the pipeline's arrays at their final contents are the six buffers, each whole, at the valuation after the
    region: the two halves of the stacked features' buffer joined. -/
theorem arrays_exit (c : Dev nD) :
    (dat m c).arrays ((dat m c).arrAt · cfg0.N)
      ⊢ (Pipeline.arrBufs (Ix := Unit) (Name := ℕ) (U := UR sig nD τ) (Lvl := ℕ) spec0 c (V2 m c) : sProp 𝕄) := by
  have e0 : (View.loc c.tc (cfg0.win 0).arr.view ↦[(cfg0.win 0).arr.view.set]{(dat m c).share 0} (dat m c).arrAt 0 cfg0.N : sProp 𝕄)
      = ((c : Thread nD τ).loc main_v5 ↦{fullShare.left} V2 m c main_v5) := by
    rw [(arr_whole0 0).set_eq_univ, (dat m c).arrAt_in 0 rfl cfg0.N, V2_of_ne m c main_v5 (by decide)]; rfl
  have e1 : (View.loc c.tc (cfg0.win 1).arr.view ↦[(cfg0.win 1).arr.view.set]{(dat m c).share 1} (dat m c).arrAt 1 cfg0.N : sProp 𝕄)
      = ((c : Thread nD τ).loc main_v5 ↦{fullShare.right} V2 m c main_v5) := by
    rw [(arr_whole0 1).set_eq_univ, (dat m c).arrAt_in 1 rfl cfg0.N, V2_of_ne m c main_v5 (by decide)]; rfl
  have e2 : (View.loc c.tc (cfg0.win 2).arr.view ↦[(cfg0.win 2).arr.view.set]{(dat m c).share 2} (dat m c).arrAt 2 cfg0.N : sProp 𝕄)
      = ((c : Thread nD τ).loc main_v8 ↦{fullShare} V2 m c main_v8) := by
    rw [(arr_whole0 2).set_eq_univ, (dat m c).arrAt_in 2 rfl cfg0.N, V2_of_ne m c main_v8 (by decide)]; rfl
  have e3 : (View.loc c.tc (cfg0.win 3).arr.view ↦[(cfg0.win 3).arr.view.set]{(dat m c).share 3} (dat m c).arrAt 3 cfg0.N : sProp 𝕄)
      = ((c : Thread nD τ).loc main_v9 ↦{fullShare} V2 m c main_v9) := by
    rw [(arr_whole0 3).set_eq_univ, (dat m c).arrAt_in 3 rfl cfg0.N, V2_of_ne m c main_v9 (by decide)]; rfl
  have e4 : (View.loc c.tc (cfg0.win 4).arr.view ↦[(cfg0.win 4).arr.view.set]{(dat m c).share 4} (dat m c).arrAt 4 cfg0.N : sProp 𝕄)
      = ((c : Thread nD τ).loc main_v10 ↦{fullShare} V2 m c main_v10) := by
    rw [(arr_whole0 4).set_eq_univ, (dat m c).arrAt_in 4 rfl cfg0.N, V2_of_ne m c main_v10 (by decide)]; rfl
  have e5 : (View.loc c.tc (cfg0.win 5).arr.view ↦[(cfg0.win 5).arr.view.set]{(dat m c).share 5} (dat m c).arrAt 5 cfg0.N : sProp 𝕄)
      = ((c : Thread nD τ).loc main_v11 ↦{fullShare} V2 m c main_v11) := by
    rw [(arr_whole0 5).set_eq_univ, (dat m c).arrAt_in 5 rfl cfg0.N, V2_of_ne m c main_v11 (by decide)]; rfl
  have e6 : (View.loc c.tc (cfg0.win 6).arr.view ↦[(cfg0.win 6).arr.view.set]{(dat m c).share 6} (dat m c).arrAt 6 cfg0.N : sProp 𝕄)
      = ((c : Thread nD τ).loc main_v12 ↦{fullShare} V2 m c main_v12) := by
    rw [(arr_whole0 6).set_eq_univ, V2_out]; rfl
  rw [arrBufs_list]
  unfold Dat.arrays
  rw [bigSep_W0]
  beta_reduce
  rw [e0, e1, e2, e3, e4, e5, e6]
  iintro ⟨H5l, H5r, H8, H9, H10, H11, H12⟩
  ihave H5 := (pointsTo_share (PosShare.mem_left_op_right fullShare)).2 $$ [H5l H5r]
  · isplitl [H5l] <;> iassumption
  isplitl [H5]; · iexact H5
  isplitl [H8]; · iexact H8
  isplitl [H9]; · iexact H9
  isplitl [H10]; · iexact H10
  isplitl [H11]; · iexact H11
  iexact H12

/-! ## The proof data family and the thread state -/

/-- The prefetched tables' admissible contents: the pipeline has no table. -/
abbrev adm : (p : Fin 1) → (pcfgs (F := F) p).Adm := fun p => (cfgs p).toPCfg_adm
/-- The one pipeline's proof data. -/
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch over every unscoped buffer from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m c) ∗ ∃ r, prngReg c r)

/-! ## The region as a segment -/

set_option backward.isDefEq.respectTransparency.types false in
/-- The region over the thread state: entered from every unscoped buffer at the contents after the first host stretch,
    left at the same with the result array at what the pipeline leaves. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (W1 m c) : sProp 𝕄)
        ⊢ iprop((pdats m 0 c).arrays ((pdats m 0 c).arrAt · 0) ∗ Pipeline.unscopedRest spec0 c (V1 m c)) := by
      rw [← Pipeline.unscopedBufs_held (Ix := Unit) (Name := ℕ) (U := UR sig nD τ) (Lvl := ℕ) c (W1 m c),
        Pipeline.unscopedBufs_split₀ cfgs 0 winFacts₀0.arr_unscoped c (V1 m c)]
      exact sep_mono (arrays_entry m c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V1 m c))
        ⊢ (StableHlo.held (c : Thread nD τ) (Pipeline.ucRefs τ sig) (W2 m c) : sProp 𝕄) := by
      rw [← Pipeline.unscopedBufs_held (Ix := Unit) (Name := ℕ) (U := UR sig nD τ) (Lvl := ℕ) c (W2 m c),
        Pipeline.unscopedBufs_split₀ cfgs 0 winFacts₀0.arr_unscoped c (V2 m c), rest_eq m c]
      exact sep_mono (arrays_exit m c) .rfl
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's three items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
/-- The program is the run of its items. -/
theorem main_run (c : Dev nD) : main (F := F) c = Pipeline.Seg.run (segs m) := (main_chain c).trans (by chain_rfl)

set_option backward.isDefEq.respectTransparency.types false in
/-- From any memory with every semaphore counter at zero, every weakly fair execution of the program terminates,
    nothing faulting, and in the final memory every unscoped buffer of every core holds the last valuation. -/
theorem run : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c =>
      show (iprop(StableHlo.held (c : Thread nD τ) (Pipeline.ucRefs τ sig) (W3 m c) ∗ R c) : sProp 𝕄)
          ⊢ iprop(Tₙ m c ∗ ∃ W, owes (c : Thread nD τ) (0 : CellTallies nD τ sig Unit) W) from by
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.KEnds.lean ====
/-
  The ends of the run: each of the program's three argument arrays holds at the end what it held at launch, and so the
  program runs to the end, faults nowhere and leaves its arguments unchanged.
-/
import proofs.«410527_j80101140070638_3_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The argument array main_arg0 reaches the end as launched: no host operation writes it and the region changes the result
    array only. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := V2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The argument array main_arg1 reaches the end as launched: no host operation writes it and the region changes the result
    array only. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := V2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The argument array main_arg2 reaches the end as launched: no host operation writes it and the region changes the result
    array only. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := V2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The run read at one unscoped reference. -/
theorem run_at (b : Ref sig .tc) (hb : ¬ (Proc.devRef .tc b : DevRef τ sig).isScoped) :
    θ_run defs (onTc (τ := τ) (main (F := F))) ⟨m, fun _ => 0, ρ⟩
      (fun r => ∀ c : Dev nD, r.2.mem ((c.tc : Thread nD τ).loc b) = W3 m c (Proc.devRef .tc b)) :=
  (θ_run defs _ _).mono (fun _ h c => h c _ (mem_uc b hb)) (run m ρ)

/-- The program terminates, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run m ρ)

end Cert.Kernel.Hand

end
-- ==== Proof.KiPay.lean ====
/-
  What the kernel's body stores at a grid point, as one function of the point and of the six blocks it loads:
  the query rows, all key rows, the rows' labels and camera ids (a column each) and all labels and camera ids
  (a row each).
-/
import proofs.«410527_j80101140070638_3_alg».proof.Proof.Gen.KernelIdeal.Skeleton

noncomputable section

namespace Cert.KernelIdeal.Hand

open Cert.KernelIdeal Cert.KernelIdeal.Gen Idealize.ShloMosaic Idealize.SL.Sem

variable {F : FTy → Type} [FloatOps F] [Named F]

/-- The 128 row losses of the point's rows: the body's payloads composed as its three parts pass them on. -/
def outPay (i : grid0.Coords) (q : Vec F S128x256 .bf16) (k : Vec F S8192x256 .bf16) (lr cr : Vec F S128x1 .i32)
    (lc cc : Vec F S1x8192 .i32) : FVec F S128 .f32 :=
  k0_pay1 (k0_pay3 i q k) (k0_pay9 (k0_pay3 i q k) (k0_pay4 i q k) (k0_pay7 i lr lc) (k0_pay8 lr lc))
    (k0_pay10 (k0_pay2 i) (k0_pay6 lr cr lc cc)) (k0_pay11 (k0_pay2 i) (k0_pay4 i q k) (k0_pay6 lr cr lc cc))

end Cert.KernelIdeal.Hand

end
-- ==== Proof.KiData.lean ====
/-
  The proof data of the kernel's one pipeline.

  The program first stacks the two views of the features into 8192 rows, rounds them to the short float format, repeats
  the labels and camera ids for the second view and lays each out as a column and as a row; the pipeline then visits 64
  points, staging at point t the query rows 128 t to 128 t + 127 (window 0), all key rows (window 1: the SAME array as
  window 0, fetched once), those rows' labels and camera ids (windows 2 and 3), all labels and camera ids (windows 4 and
  5, fetched once), and writing back the 128 row losses (window 6).  The two windows on one array each hold half of it.
-/
import proofs.«410527_j80101140070638_3_alg».proof.Proof.Gen.KernelIdeal.Launch
import proofs.«410527_j80101140070638_3_alg».proof.Proof.Gen.KernelIdeal.Points
import proofs.«410527_j80101140070638_3_alg».proof.Proof.Gen.KernelIdeal.Skeleton
import proofs.«410527_j80101140070638_3_alg».proof.Proof.KiPay
import Idealize.ShloMosaic.Lib.Pipeline.FrameBody
import Idealize.ShloMosaic.Lib.Pipeline.Frame
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffers' contents before the region -/

/-- Core c's buffers at launch. -/
abbrev W0 (c : Dev nD) : Valuation τ sig (Elt F) := fun b => m (c, b)
/-- After the host operations before the region. -/
abbrev W1 (c : Dev nD) : Valuation τ sig (Elt F) := StableHlo.after hostOps0 (W0 m c)
/-- The same read at the TensorCore's references: what the region is entered with. -/
abbrev V1 (c : Dev nD) (b : Ref sig .tc) : Buf (Elt F) ((c : Thread nD τ).loc b) := W1 m c b

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-! ## The body's accesses: each buffer whole -/

abbrev rQ : Rect S128x256 := Rect.unit (s := S128x256) ![0, 0] S128x256.size inb_S128x256_S128x256_0_0
abbrev rK : Rect S8192x256 := Rect.unit (s := S8192x256) ![0, 0] S8192x256.size inb_S8192x256_S8192x256_0_0
abbrev rCol : Rect S128x1 := Rect.unit (s := S128x1) ![0, 0] S128x1.size inb_S128x1_S128x1_0_0
abbrev rRow : Rect S1x8192 := Rect.unit (s := S1x8192) ![0, 0] S1x8192.size inb_S1x8192_S1x8192_0_0
abbrev rOut : Rect S128 := Rect.unit (s := S128) ![0] S128.size inb_S128_S128_0

/-- The result window's staging buffer after the body, from the point and the six input blocks: its one store. -/
def out6 (i : grid0.Coords) (x0 : Vec F S128x256 .bf16) (x1 : Vec F S8192x256 .bf16) (x2 x3 : Vec F S128x1 .i32)
    (x4 x5 : Vec F S1x8192 .i32) : Vec F S128 .f32 :=
  View.canon [⟨rOut, outPay i (View.ld x0 rQ) (View.ld x1 rK) (View.ld x2 rCol) (View.ld x3 rCol) (View.ld x4 rRow) (View.ld x5 rRow)⟩]

/-- The one store covers the buffer. -/
theorem cover6 (p0 : Vec F S128 .f32) (y : S128.Idx) :
    ∃ pc ∈ ([⟨rOut, p0⟩] : List (View.Piece (Elt F) S128 .f32)), y ∈ pc.1.set :=
  View.cover_of_tiled [⟨rOut, p0⟩] S128.size (by rfl) y

/-! ## The proof data -/

/-- The arrays as the region finds them; after the body at point t each input's buffer at its block and the result's at
    the body's store; the class invariant; nothing owed; the two windows on the stacked features half of it each. -/
def dat (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (grid0.coords t) (iblk m c 0 t) (iblk m c 1 t) (iblk m c 2 t) (iblk m c 3 t) (iblk m c 4 t) (iblk m c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dat m c).A w = V1 m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t
    = out6 (grid0.coords t) (iblk m c 0 t) (iblk m c 1 t) (iblk m c 2 t) (iblk m c 3 t) (iblk m c 4 t) (iblk m c 5 t) := by
  dsimp only [dat]

end Cert.KernelIdeal.Hand

end
-- ==== Proof.KiBody.lean ====
/-
  The kernel body's obligation at every grid point: run on the point's staging buffers, the six inputs' holding their
  blocks and the result's holding anything, the body leaves the inputs' as they were and the result's at its one store.
-/
import proofs.«410527_j80101140070638_3_alg».proof.Proof.KiData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## What each input's staging buffer holds when the body runs

An input window's block is left in place by the body, so whether the pipeline fetched the window at the point or not
its current buffer holds the point's block: fetched, the fetch put it there; not fetched, the block index has not moved
since the last fetch and nothing wrote the buffer in between.  The query rows and their label and camera columns move
with the point; the key rows and the label and camera rows are the whole arrays, fetched once at the first point. -/

/-- The query rows' buffer holds rows 128 t to 128 t + 127 of the stacked features. -/
theorem before_0 (c : Dev nD) (t : Fin cfg0.N) (d) : (dat m c).before 0 t d = iblk m c 0 t :=
  ((dat m c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- The key rows' buffer holds all 8192 rows of the stacked features, at every point. -/
theorem before_1 (c : Dev nD) (t : Fin cfg0.N) (d) : (dat m c).before 1 t d = iblk m c 1 t :=
  ((dat m c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The label column's buffer holds the point's 128 labels. -/
theorem before_2 (c : Dev nD) (t : Fin cfg0.N) (d) : (dat m c).before 2 t d = iblk m c 2 t :=
  ((dat m c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- The camera column's buffer holds the point's 128 camera ids. -/
theorem before_3 (c : Dev nD) (t : Fin cfg0.N) (d) : (dat m c).before 3 t d = iblk m c 3 t :=
  ((dat m c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- The label row's buffer holds all 8192 labels, at every point. -/
theorem before_4 (c : Dev nD) (t : Fin cfg0.N) (d) : (dat m c).before 4 t d = iblk m c 4 t :=
  ((dat m c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- The camera row's buffer holds all 8192 camera ids, at every point. -/
theorem before_5 (c : Dev nD) (t : Fin cfg0.N) (d) : (dat m c).before 5 t d = iblk m c 5 t :=
  ((dat m c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body's triple -/

set_option maxHeartbeats 1000000 in
/-- The body on seven whole buffers, the six inputs' reading `x0 … x5` and the result's holding anything, runs without
    fault to the continuation, which gets the six inputs' buffers back as they were and the result's buffer at `out6`
    of the coordinates and the inputs.  The body is its first part's six whole loads, its second part's arithmetic, a
    load of the result's buffer whose value nothing reads, and one store over all 128 entries: so what the result's
    buffer held before is overwritten everywhere, and its contents are the store's payload, which is `outPay` of the
    six loaded vectors by the way the parts hand their values on. -/
theorem sound_kernel (c : Dev nD) (E : Set ℕ) (i : grid0.Coords)
    (aQ : Memref sig .tc .vmem S128x256 .bf16) (hQ : aQ.IsWhole) (aK : Memref sig .tc .vmem S8192x256 .bf16) (hK : aK.IsWhole)
    (aLc : Memref sig .tc .vmem S128x1 .i32) (hLc : aLc.IsWhole) (aCc : Memref sig .tc .vmem S128x1 .i32) (hCc : aCc.IsWhole)
    (aLr : Memref sig .tc .vmem S1x8192 .i32) (hLr : aLr.IsWhole) (aCr : Memref sig .tc .vmem S1x8192 .i32) (hCr : aCr.IsWhole)
    (aO : Memref sig .tc .vmem S128 .f32) (hO : aO.IsWhole)
    (x0 : Vec F S128x256 .bf16) (x1 : Vec F S8192x256 .bf16) (x2 x3 : Vec F S128x1 .i32) (x4 x5 : Vec F S1x8192 .i32)
    (K : PUnit → sProp 𝕄) :
    iprop(owns (c : Thread nD τ) aQ fullShare x0 ∗ owns (c : Thread nD τ) aK fullShare x1
        ∗ owns (c : Thread nD τ) aLc fullShare x2 ∗ owns (c : Thread nD τ) aCc fullShare x3
        ∗ owns (c : Thread nD τ) aLr fullShare x4 ∗ owns (c : Thread nD τ) aCr fullShare x5
        ∗ (∃ d, owns (c : Thread nD τ) aO fullShare d)
        ∗ (iprop(owns (c : Thread nD τ) aQ fullShare x0 ∗ owns (c : Thread nD τ) aK fullShare x1
            ∗ owns (c : Thread nD τ) aLc fullShare x2 ∗ owns (c : Thread nD τ) aCc fullShare x3
            ∗ owns (c : Thread nD τ) aLr fullShare x4 ∗ owns (c : Thread nD τ) aCr fullShare x5
            ∗ owns (c : Thread nD τ) aO fullShare (out6 i x0 x1 x2 x3 x4 x5)) -∗ K ⟨⟩))
      ⊢ wp frame (wpE (defs₀ (F := F)) Variants.none c none) E
          (cc0__scl_kernel i aQ hQ aK hK aLc hLc aCc hCc aLr hLr aCr hCr aO hO) K := by
  simp only [cc0__scl_kernel_eq_skeleton]; unfold cc0__scl_kernel_skel
  simp only [k0_part1_eq_skeleton, k0_part2_eq_skeleton]; unfold k0_part1_skel k0_part2_skel
  unfold owns
  iintro ⟨⟨%fQ, %eQ, HQ⟩, ⟨%fK, %eK, HK⟩, ⟨%fLc, %eLc, HLc⟩, ⟨%fCc, %eCc, HCc⟩, ⟨%fLr, %eLr, HLr⟩, ⟨%fCr, %eCr, HCr⟩,
    ⟨%dO, %fO, -, HO⟩, Hk⟩
  subst eQ eK eLc eCc eLr eCr
  sl_exec
  sl_step
  iapply Hk
  isplitl [HQ]
  · iexists fQ; isplitr; · ipureintro; rfl
    iexact HQ
  isplitl [HK]
  · iexists fK; isplitr; · ipureintro; rfl
    iexact HK
  isplitl [HLc]
  · iexists fLc; isplitr; · ipureintro; rfl
    iexact HLc
  isplitl [HCc]
  · iexists fCc; isplitr; · ipureintro; rfl
    iexact HCc
  isplitl [HLr]
  · iexists fLr; isplitr; · ipureintro; rfl
    iexact HLr
  isplitl [HCr]
  · iexists fCr; isplitr; · ipureintro; rfl
    iexact HCr
  iexists _; isplitr
  swap; · iexact HO
  ipureintro
  exact View.read_writes_eq_canon _ _ _ (cover6 _)

/-! ## The body at a grid point -/

/-- What the pipeline hands the body at point `t`: the invariant, the core's tallies, and each window's current
    staging buffer at what it then holds. -/
def heldBefore (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d)))

/-- What it takes back: the same invariant and tallies, and each buffer at what the proof data say the body leaves. -/
def heldAfter (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t))

/-- The body at point `t`.  Each input's buffer holds the point's block (`before_0 … before_5`), the result's holds
    whatever the last write-back left; so the body's triple applies at the point's coordinates and the seven current
    buffers, and what it returns is what the proof data name: the blocks again, and `out6` of the coordinates and the
    blocks.  The invariant and the tallies are the same at every point and the body touches neither. -/
theorem sound_at (c : Dev nD) (t : Fin cfg0.N) :
    heldBefore m c t ⊢ wp frame (wpE (defs₀ (F := F)) Variants.none c none) Set.univ (bodyAt0 t) (fun _ => heldAfter m c t) := by
  unfold heldBefore heldAfter bodyAt0
  simp only [before_0, before_1, before_2, before_3, before_4, before_5]
  rw [show (dat m c).Φ t.succ = (dat m c).Φ t.castSucc from rfl,
    show (dat m c).owesAt () t.succ = (dat m c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (iblk m c 0 t) (iblk m c 1 t) (iblk m c 2 t) (iblk m c 3 t) (iblk m c 4 t) (iblk m c 5 t)
    (fun _ => iprop((dat m c).Φ t.castSucc ∗ (dat m c).owesAt () t.castSucc
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ owns (c : Thread nD τ) (st0_5 t) fullShare (iblk m c 5 t)
      ∗ owns (c : Thread nD τ) (st0_6 t) fullShare
          (out6 (grid0.coords t) (iblk m c 0 t) (iblk m c 1 t) (iblk m c 2 t) (iblk m c 3 t) (iblk m c 4 t) (iblk m c 5 t)))))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the proof data `dat`, at every point. -/
theorem body_obligation (c : Dev nD) :
    BodyObligation (dat (F := F) m c) (defs₀ (F := F)) Variants.none () Set.univ := fun t => by
  rw [bigSep_W0, bigSep_W0]
  exact sound_at m c t

end Cert.KernelIdeal.Hand

end
-- ==== Proof.KiRun.lean ====
/-
  The run of the whole program: the host operations before the region, the pipeline, the host operations after it.

  Between two items every unscoped buffer of a core is held whole at a valuation: the launch memory, then that after the
  first host stretch, then the same with the result array at what the pipeline leaves, then that after the second
  stretch.  Entering the region, the buffers behind the seven windows' arrays (six buffers: the stacked features serve
  two windows) become the pipeline's arrays, the stacked features' buffer cut in two halves, one per window; leaving
  it the halves are joined again.  Every weakly fair execution terminates, and the final memory holds every unscoped
  buffer at the last valuation.
-/
import proofs.«410527_j80101140070638_3_alg».proof.Proof.KiBody
import Idealize.ShloMosaic.Lib.Pipeline.Kit
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers behind the windows' arrays -/

/-- The seven windows' arrays are six buffers. -/
theorem arrRefs_eq : Finset.univ.image (Pipeline.arrRef spec0) = [main_v5, main_v8, main_v9, main_v10, main_v11, main_v12].toFinset := by
  decide

/-- Those buffers one by one. -/
theorem arrBufs_list (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v5) ↦{fullShare} V main_v5) ∗ (((c : Thread nD τ).loc main_v8) ↦{fullShare} V main_v8)
          ∗ (((c : Thread nD τ).loc main_v9) ↦{fullShare} V main_v9) ∗ (((c : Thread nD τ).loc main_v10) ↦{fullShare} V main_v10)
          ∗ (((c : Thread nD τ).loc main_v11) ↦{fullShare} V main_v11) ∗ (((c : Thread nD τ).loc main_v12) ↦{fullShare} V main_v12)) := by
  unfold Pipeline.arrBufs
  exact (bigSep_eq_bigSepL_of_eq [main_v5, main_v8, main_v9, main_v10, main_v11, main_v12] arrRefs_eq (by decide) _).trans rfl

/-- ENTRY: the six buffers, each whole, are the pipeline's arrays at their entry contents: the stacked features'
    buffer halved between the query window and the key window. -/
theorem arrays_entry (c : Dev nD) :
    (Pipeline.arrBufs (Ix := Unit) (Name := ℕ) (U := UR sig nD τ) (Lvl := ℕ) spec0 c (V1 m c) : sProp 𝕄)
      ⊢ (dat m c).arrays ((dat m c).arrAt · 0) := by
  have e0 : (View.loc c.tc (cfg0.win 0).arr.view ↦[(cfg0.win 0).arr.view.set]{(dat m c).share 0} (dat m c).arrAt 0 0 : sProp 𝕄)
      = ((c : Thread nD τ).loc main_v5 ↦{fullShare.left} V1 m c main_v5) := by
    rw [(arr_whole0 0).set_eq_univ]; rfl
  have e1 : (View.loc c.tc (cfg0.win 1).arr.view ↦[(cfg0.win 1).arr.view.set]{(dat m c).share 1} (dat m c).arrAt 1 0 : sProp 𝕄)
      = ((c : Thread nD τ).loc main_v5 ↦{fullShare.right} V1 m c main_v5) := by
    rw [(arr_whole0 1).set_eq_univ]; rfl
  have e2 : (View.loc c.tc (cfg0.win 2).arr.view ↦[(cfg0.win 2).arr.view.set]{(dat m c).share 2} (dat m c).arrAt 2 0 : sProp 𝕄)
      = ((c : Thread nD τ).loc main_v8 ↦{fullShare} V1 m c main_v8) := by
    rw [(arr_whole0 2).set_eq_univ]; rfl
  have e3 : (View.loc c.tc (cfg0.win 3).arr.view ↦[(cfg0.win 3).arr.view.set]{(dat m c).share 3} (dat m c).arrAt 3 0 : sProp 𝕄)
      = ((c : Thread nD τ).loc main_v9 ↦{fullShare} V1 m c main_v9) := by
    rw [(arr_whole0 3).set_eq_univ]; rfl
  have e4 : (View.loc c.tc (cfg0.win 4).arr.view ↦[(cfg0.win 4).arr.view.set]{(dat m c).share 4} (dat m c).arrAt 4 0 : sProp 𝕄)
      = ((c : Thread nD τ).loc main_v10 ↦{fullShare} V1 m c main_v10) := by
    rw [(arr_whole0 4).set_eq_univ]; rfl
  have e5 : (View.loc c.tc (cfg0.win 5).arr.view ↦[(cfg0.win 5).arr.view.set]{(dat m c).share 5} (dat m c).arrAt 5 0 : sProp 𝕄)
      = ((c : Thread nD τ).loc main_v11 ↦{fullShare} V1 m c main_v11) := by
    rw [(arr_whole0 5).set_eq_univ]; rfl
  have e6 : (View.loc c.tc (cfg0.win 6).arr.view ↦[(cfg0.win 6).arr.view.set]{(dat m c).share 6} (dat m c).arrAt 6 0 : sProp 𝕄)
      = ((c : Thread nD τ).loc main_v12 ↦{fullShare} V1 m c main_v12) := by
    rw [(arr_whole0 6).set_eq_univ]; rfl
  rw [arrBufs_list]
  unfold Dat.arrays
  rw [bigSep_W0]
  beta_reduce
  rw [e0, e1, e2, e3, e4, e5, e6]
  iintro ⟨H5, H8, H9, H10, H11, H12⟩
  ihave H5' := (pointsTo_share (PosShare.mem_left_op_right fullShare)).1 $$ H5
  icases H5' with ⟨H5l, H5r⟩
  isplitl [H5l]; · iexact H5l
  isplitl [H5r]; · iexact H5r
  isplitl [H8]; · iexact H8
  isplitl [H9]; · iexact H9
  isplitl [H10]; · iexact H10
  isplitl [H11]; · iexact H11
  iexact H12

/-! ## After the region -/

/-- What the pipeline leaves in the result array: its write-backs folded. -/
def outArr (c : Dev nD) : Buf (Elt F) ((c : Thread nD τ).loc main_v12) := (dat m c).arrAt 6 cfg0.N

/-- Core c's buffers when the region is left: as entered, the result array at what the pipeline leaves. -/
def W2 (c : Dev nD) : Valuation τ sig (Elt F) := Function.update (W1 m c) (Proc.devRef .tc main_v12) (outArr m c)
/-- The same read at the TensorCore's references. -/
abbrev V2 (c : Dev nD) (b : Ref sig .tc) : Buf (Elt F) ((c : Thread nD τ).loc b) := W2 m c b
/-- After the host operations after the region. -/
abbrev W3 (c : Dev nD) : Valuation τ sig (Elt F) := StableHlo.after hostOps1 (W2 m c)

theorem V2_out (c : Dev nD) : V2 m c main_v12 = outArr m c := by
  show Function.update (W1 m c) (Proc.devRef .tc main_v12) (outArr m c) (Proc.devRef .tc main_v12) = _
  exact Function.update_self _ _ _
theorem V2_of_ne (c : Dev nD) (b : Ref sig .tc) (h : b ≠ main_v12) : V2 m c b = V1 m c b := by
  show Function.update (W1 m c) (Proc.devRef .tc main_v12) (outArr m c) (Proc.devRef .tc b) = W1 m c (Proc.devRef .tc b)
  exact Function.update_of_ne (StableHlo.devRef_ne_of_ne h) _ _

/-- No buffer outside the windows' arrays changes across the region. -/
theorem rest_eq (c : Dev nD) :
    (Pipeline.unscopedRest (Ix := Unit) (Name := ℕ) (U := UR sig nD τ) (Lvl := ℕ) spec0 c (V2 m c) : sProp 𝕄)
      = Pipeline.unscopedRest spec0 c (V1 m c) := by
  unfold Pipeline.unscopedRest
  exact bigSep_congr fun b hb => by
    rw [V2_of_ne m c b fun e => (Finset.mem_sdiff.mp hb).2 (Finset.mem_image.mpr ⟨6, Finset.mem_univ _, by rw [e]⟩)]

/-- EXIT: the pipeline's arrays at their final contents are the six buffers, each whole, at the valuation after the
    region: the two halves of the stacked features' buffer joined. -/
theorem arrays_exit (c : Dev nD) :
    (dat m c).arrays ((dat m c).arrAt · cfg0.N)
      ⊢ (Pipeline.arrBufs (Ix := Unit) (Name := ℕ) (U := UR sig nD τ) (Lvl := ℕ) spec0 c (V2 m c) : sProp 𝕄) := by
  have e0 : (View.loc c.tc (cfg0.win 0).arr.view ↦[(cfg0.win 0).arr.view.set]{(dat m c).share 0} (dat m c).arrAt 0 cfg0.N : sProp 𝕄)
      = ((c : Thread nD τ).loc main_v5 ↦{fullShare.left} V2 m c main_v5) := by
    rw [(arr_whole0 0).set_eq_univ, (dat m c).arrAt_in 0 rfl cfg0.N, V2_of_ne m c main_v5 (by decide)]; rfl
  have e1 : (View.loc c.tc (cfg0.win 1).arr.view ↦[(cfg0.win 1).arr.view.set]{(dat m c).share 1} (dat m c).arrAt 1 cfg0.N : sProp 𝕄)
      = ((c : Thread nD τ).loc main_v5 ↦{fullShare.right} V2 m c main_v5) := by
    rw [(arr_whole0 1).set_eq_univ, (dat m c).arrAt_in 1 rfl cfg0.N, V2_of_ne m c main_v5 (by decide)]; rfl
  have e2 : (View.loc c.tc (cfg0.win 2).arr.view ↦[(cfg0.win 2).arr.view.set]{(dat m c).share 2} (dat m c).arrAt 2 cfg0.N : sProp 𝕄)
      = ((c : Thread nD τ).loc main_v8 ↦{fullShare} V2 m c main_v8) := by
    rw [(arr_whole0 2).set_eq_univ, (dat m c).arrAt_in 2 rfl cfg0.N, V2_of_ne m c main_v8 (by decide)]; rfl
  have e3 : (View.loc c.tc (cfg0.win 3).arr.view ↦[(cfg0.win 3).arr.view.set]{(dat m c).share 3} (dat m c).arrAt 3 cfg0.N : sProp 𝕄)
      = ((c : Thread nD τ).loc main_v9 ↦{fullShare} V2 m c main_v9) := by
    rw [(arr_whole0 3).set_eq_univ, (dat m c).arrAt_in 3 rfl cfg0.N, V2_of_ne m c main_v9 (by decide)]; rfl
  have e4 : (View.loc c.tc (cfg0.win 4).arr.view ↦[(cfg0.win 4).arr.view.set]{(dat m c).share 4} (dat m c).arrAt 4 cfg0.N : sProp 𝕄)
      = ((c : Thread nD τ).loc main_v10 ↦{fullShare} V2 m c main_v10) := by
    rw [(arr_whole0 4).set_eq_univ, (dat m c).arrAt_in 4 rfl cfg0.N, V2_of_ne m c main_v10 (by decide)]; rfl
  have e5 : (View.loc c.tc (cfg0.win 5).arr.view ↦[(cfg0.win 5).arr.view.set]{(dat m c).share 5} (dat m c).arrAt 5 cfg0.N : sProp 𝕄)
      = ((c : Thread nD τ).loc main_v11 ↦{fullShare} V2 m c main_v11) := by
    rw [(arr_whole0 5).set_eq_univ, (dat m c).arrAt_in 5 rfl cfg0.N, V2_of_ne m c main_v11 (by decide)]; rfl
  have e6 : (View.loc c.tc (cfg0.win 6).arr.view ↦[(cfg0.win 6).arr.view.set]{(dat m c).share 6} (dat m c).arrAt 6 cfg0.N : sProp 𝕄)
      = ((c : Thread nD τ).loc main_v12 ↦{fullShare} V2 m c main_v12) := by
    rw [(arr_whole0 6).set_eq_univ, V2_out]; rfl
  rw [arrBufs_list]
  unfold Dat.arrays
  rw [bigSep_W0]
  beta_reduce
  rw [e0, e1, e2, e3, e4, e5, e6]
  iintro ⟨H5l, H5r, H8, H9, H10, H11, H12⟩
  ihave H5 := (pointsTo_share (PosShare.mem_left_op_right fullShare)).2 $$ [H5l H5r]
  · isplitl [H5l] <;> iassumption
  isplitl [H5]; · iexact H5
  isplitl [H8]; · iexact H8
  isplitl [H9]; · iexact H9
  isplitl [H10]; · iexact H10
  isplitl [H11]; · iexact H11
  iexact H12

/-! ## The proof data family and the thread state -/

/-- The prefetched tables' admissible contents: the pipeline has no table. -/
abbrev adm : (p : Fin 1) → (pcfgs (F := F) p).Adm := fun p => (cfgs p).toPCfg_adm
/-- The one pipeline's proof data. -/
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch over every unscoped buffer from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m c) ∗ ∃ r, prngReg c r)

/-! ## The region as a segment -/

set_option backward.isDefEq.respectTransparency.types false in
/-- The region over the thread state: entered from every unscoped buffer at the contents after the first host stretch,
    left at the same with the result array at what the pipeline leaves. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (W1 m c) : sProp 𝕄)
        ⊢ iprop((pdats m 0 c).arrays ((pdats m 0 c).arrAt · 0) ∗ Pipeline.unscopedRest spec0 c (V1 m c)) := by
      rw [← Pipeline.unscopedBufs_held (Ix := Unit) (Name := ℕ) (U := UR sig nD τ) (Lvl := ℕ) c (W1 m c),
        Pipeline.unscopedBufs_split₀ cfgs 0 winFacts₀0.arr_unscoped c (V1 m c)]
      exact sep_mono (arrays_entry m c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V1 m c))
        ⊢ (StableHlo.held (c : Thread nD τ) (Pipeline.ucRefs τ sig) (W2 m c) : sProp 𝕄) := by
      rw [← Pipeline.unscopedBufs_held (Ix := Unit) (Name := ℕ) (U := UR sig nD τ) (Lvl := ℕ) c (W2 m c),
        Pipeline.unscopedBufs_split₀ cfgs 0 winFacts₀0.arr_unscoped c (V2 m c), rest_eq m c]
      exact sep_mono (arrays_exit m c) .rfl
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's three items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
/-- The program is the run of its items. -/
theorem main_run (c : Dev nD) : main (F := F) c = Pipeline.Seg.run (segs m) := (main_chain c).trans (by chain_rfl)

set_option backward.isDefEq.respectTransparency.types false in
/-- From any memory with every semaphore counter at zero, every weakly fair execution of the program terminates,
    nothing faulting, and in the final memory every unscoped buffer of every core holds the last valuation. -/
theorem run : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c =>
      show (iprop(StableHlo.held (c : Thread nD τ) (Pipeline.ucRefs τ sig) (W3 m c) ∗ R c) : sProp 𝕄)
          ⊢ iprop(Tₙ m c ∗ ∃ W, owes (c : Thread nD τ) (0 : CellTallies nD τ sig Unit) W) from by
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.KiEnds.lean ====
/-
  The ends of the run: each of the program's three argument arrays holds at the end what it held at launch, and so the
  program runs to the end, faults nowhere and leaves its arguments unchanged.
-/
import proofs.«410527_j80101140070638_3_alg».proof.Proof.KiRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- The argument array main_arg0 reaches the end as launched: no host operation writes it and the region changes the result
    array only. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := V2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The argument array main_arg1 reaches the end as launched: no host operation writes it and the region changes the result
    array only. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := V2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The argument array main_arg2 reaches the end as launched: no host operation writes it and the region changes the result
    array only. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := V2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The run read at one unscoped reference. -/
theorem run_at (b : Ref sig .tc) (hb : ¬ (Proc.devRef .tc b : DevRef τ sig).isScoped) :
    θ_run defs (onTc (τ := τ) (main (F := F))) ⟨m, fun _ => 0, ρ⟩
      (fun r => ∀ c : Dev nD, r.2.mem ((c.tc : Thread nD τ).loc b) = W3 m c (Proc.devRef .tc b)) :=
  (θ_run defs _ _).mono (fun _ h c => h c _ (mem_uc b hb)) (run m ρ)

/-- The program terminates, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run m ρ)

end Cert.KernelIdeal.Hand

end
-- ==== Proof.Spec.lean ====
/-
  The loss both programs compute, on the extended reals.

  Two views of N = 4096 feature vectors of dimension 256 are stacked into 8192 rows (`feat`); labels and camera ids are
  repeated for the second view (`twice`).  The similarity of rows i and j is the inner product of their features
  (`sim`); scaled by the inverse temperature, with the diagonal replaced by a large negative fill, it is the logit
  matrix.  For a row of logits l, a row of "positive" marks and the mark of the diagonal entry, the row's term is a
  cross-entropy averaged over the positives off the diagonal (`pm`): with m the row's maximum, s j = l j - m, e j = exp (s j)
  and S the sum of e over the non-positives,

      (sum over pm of [ log (e j + S) - s j ]) / (number of pm).

  The kernel forms the two sums separately, subtracts, and guards the quotient (`rowK`); the reference sums the
  differences and divides by the count (`rowR`).  The loss is the mean over the rows of the label term plus half the
  label-and-camera term.  The kernel multiplies the similarity by the inverse temperature (`invT`), the reference
  divides it by the temperature's word (`tempW`): `logitK`, `logitR`.
-/
import Idealize.ShloMosaic.PureOps.Ideal
import Idealize.ShloMosaic.PureOps.Ideal.Laws
import Idealize.ShloMosaic.Lib.IdealHost
import Idealize.ShloMosaic.Lib.ValueIdx

noncomputable section

namespace Cert.Spec

open Idealize.ShloMosaic

/-- The fill both programs put on the diagonal (the float -1e30). -/
def fill : EReal := Ideal.ofBits .f32 0xF149F2CA#32
/-- The inverse temperature: the reciprocal of the reference's divisor, the rational 134217728 / 13421773. -/
def invT : EReal := ((134217728 / 13421773 : ℝ) : EReal)
/-- The reference's divisor: the float nearest one tenth, 13421773 / 134217728. -/
def tempW : EReal := Ideal.ofBits .f32 0x3DCCCCCD#32
/-- The weight of the label-and-camera term (the float one half). -/
def halfW : EReal := Ideal.ofBits .f32 0x3F000000#32
/-- The number of rows as both programs spell it (the float 8192). -/
def rowsW : EReal := Ideal.ofBits .f32 0x46000000#32

/-! ## One row -/

section Row

variable (l : Fin 8192 → EReal) (pos dg : Fin 8192 → Bool)

/-- The row's maximum: the fold of max from the bottom element. -/
def rowMax : EReal := (Finset.univ : Finset (Fin 8192)).fold max ⊥ l
/-- The shifted logit. -/
def sh (j : Fin 8192) : EReal := l j - rowMax l
/-- Its exponential. -/
def ex (j : Fin 8192) : EReal := Ideal.exp (sh l j)
/-- A positive off the diagonal. -/
def pm (j : Fin 8192) : Bool := pos j && !dg j
/-- The sum of the exponentials over the entries that are not positives. -/
def negSum : EReal := ∑ j, if pos j then 0 else ex l j
/-- The logarithm of a positive's exponential plus the negatives' sum (of one elsewhere). -/
def logTerm (j : Fin 8192) : EReal := Ideal.log (if pm pos dg j then ex l j + negSum l pos else 1)
/-- The number of positives off the diagonal. -/
def cnt : EReal := ∑ j, if pm pos dg j then (1 : EReal) else 0
/-- The row's term as the kernel forms it: two sums, their difference, a guarded quotient. -/
def rowK : EReal :=
  if 0 < cnt pos dg then
    Ideal.div ((∑ j, if pm pos dg j then logTerm l pos dg j else 0) - (∑ j, if pm pos dg j then sh l j else 0))
      (max (cnt pos dg) 1)
  else 0
/-- The row's term as the reference forms it: the sum of the differences over the count. -/
def rowR : EReal :=
  Ideal.div (∑ j, if pm pos dg j then logTerm l pos dg j - sh l j else 0) (cnt pos dg)

end Row

/-! ## The whole loss -/

section Loss

variable (X : Fin 4096 → Fin 2 → Fin 256 → EReal) (lab cam : Fin 4096 → BitVec 32)

/-- The two views stacked: rows 0 to 4095 are view 0, rows 4096 to 8191 view 1. -/
def feat (i : Fin 8192) (d : Fin 256) : EReal :=
  if h : i.val < 4096 then X ⟨i.val, h⟩ 0 d else X ⟨i.val - 4096, by omega⟩ 1 d
/-- A per-sample integer repeated for the second view. -/
def twice (v : Fin 4096 → BitVec 32) (i : Fin 8192) : BitVec 32 :=
  if h : i.val < 4096 then v ⟨i.val, h⟩ else v ⟨i.val - 4096, by omega⟩
/-- The similarity of two rows. -/
def sim (i j : Fin 8192) : EReal := ∑ d : Fin 256, feat X i d * feat X j d
/-- The kernel's logits: the similarity times the inverse temperature, the fill on the diagonal. -/
def logitK (i j : Fin 8192) : EReal := if i = j then fill else sim X i j * invT
/-- The reference's logits: the similarity over the temperature's word, the fill on the diagonal. -/
def logitR (i j : Fin 8192) : EReal := if i = j then fill else Ideal.div (sim X i j) tempW
/-- Same label. -/
def posId (i j : Fin 8192) : Bool := decide (twice lab i = twice lab j)
/-- Same label and same camera. -/
def posCam (i j : Fin 8192) : Bool := decide (twice lab i = twice lab j) && decide (twice cam i = twice cam j)
/-- The diagonal's mark in row i. -/
def diag (i j : Fin 8192) : Bool := decide (i = j)

/-- Row i of the kernel's result array. -/
def lossRowK (i : Fin 8192) : EReal :=
  1 * rowK (logitK X i) (posId lab i) (diag i) + halfW * rowK (logitK X i) (posCam lab cam i) (diag i)
/-- Row i of the reference's row losses. -/
def lossRowR (i : Fin 8192) : EReal :=
  1 * rowR (logitR X i) (posId lab i) (diag i) + halfW * rowR (logitR X i) (posCam lab cam i) (diag i)
/-- The kernel's result. -/
def lossK : EReal := Ideal.div (∑ i, lossRowK X lab cam i) rowsW
/-- The reference's result. -/
def lossR : EReal := Ideal.div (∑ i, lossRowR X lab cam i) rowsW

end Loss

/-! ## The argument arrays as the functions above take them -/

/-- The features array [4096, 2, 256] by sample, view and coordinate. -/
def featOf (x : (⟨3, ![4096, 2, 256]⟩ : Shape).Idx → EReal) : Fin 4096 → Fin 2 → Fin 256 → EReal :=
  fun a b d => x (ValueIdx.ix3 a b d)
/-- An integer array [4096] by sample. -/
def intsOf (v : (⟨1, ![4096]⟩ : Shape).Idx → BitVec 32) : Fin 4096 → BitVec 32 := fun a => v (ValueIdx.ix1 a)

end Cert.Spec

end
-- ==== Proof.KiBlocks.lean ====
/-
  What each staged block holds, in terms of the program's three argument arrays: the stacked features and the repeated
  labels and camera ids through the host operations before the region, then the block's place in its array.
-/
import proofs.«410527_j80101140070638_3_alg».proof.Proof.KiData
import proofs.«410527_j80101140070638_3_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The features, labels and camera ids the program was launched with, as the specification takes them. -/
abbrev feats (c : Dev nD) : Fin 4096 → Fin 2 → Fin 256 → EReal := Cert.Spec.featOf (m ((c : Thread nD τ).loc main_arg0))
abbrev labs (c : Dev nD) : Fin 4096 → BitVec 32 := Cert.Spec.intsOf (m ((c : Thread nD τ).loc main_arg1))
abbrev cams (c : Dev nD) : Fin 4096 → BitVec 32 := Cert.Spec.intsOf (m ((c : Thread nD τ).loc main_arg2))

/-- Row p of point t is row 128 t + p of the stacked arrays. -/
def grow (t : Fin cfg0.N) (p : Fin 128) : Fin 8192 :=
  ⟨t.val * 128 + p.val, by have h := t.isLt; have h64 : cfg0.N = 64 := N_0; have hp := p.isLt; omega⟩

/-- The point's one coordinate is the point. -/
theorem coords_val (t : Fin cfg0.N) : ((grid0.coords t) 0).val = t.val :=
  (by decide +kernel : ∀ t : Fin grid0.N, ((grid0.coords t) 0).val = t.val) t

/-! ## The arrays the windows read, as terms of the arguments -/

/-- The two views cut out of the features, flattened and stacked. -/
def stackT (x : S4096x2x256.Idx → EReal) : S8192x256.Idx → EReal :=
  truncf (F := Ideal) .bf16
    (concatenate S8192x256 0
      [⟨S4096x256, shapeCast S4096x256 (extractStridedSlice S4096x1x256 ![0, 0, 0] x slices_S4096x2x256_S4096x1x256_0_0_0)
          shapeCasts_S4096x1x256_S4096x256⟩,
       ⟨S4096x256, shapeCast S4096x256 (extractStridedSlice S4096x1x256 ![0, 1, 0] x slices_S4096x2x256_S4096x1x256_0_1_0)
          shapeCasts_S4096x1x256_S4096x256⟩]
      concatenates_S4096x256_S4096x256_S8192x256_d0 : FVec Ideal S8192x256 .f32)
    bitsLt_bf16_f32

/-- The stacked, rounded features are that stack of the features argument (rounding is the identity on the extended reals). -/
theorem v5_eq (c : Dev nD) : (V1 m c main_v5 : S8192x256.Idx → EReal) = stackT (m ((c : Thread nD τ).loc main_arg0)) := by
  dsimp only [V1, W1, W0, Gen.hostOps0]
  after_results
  rfl

/-- One view of a sample, read through the slice and the flattening. -/
theorem view_apply (x : S4096x2x256.Idx → EReal) (v : Fin 2) (off : Fin 3 → Nat) (hoff : off = ![0, v.val, 0])
    (hs : S4096x2x256.Slices off S4096x1x256) (a : Fin 4096) (d : Fin 256) :
    shapeCast S4096x256 (extractStridedSlice S4096x1x256 off x hs) shapeCasts_S4096x1x256_S4096x256 (ix2 a d) = x (ix3 a v d) := by
  subst hoff
  refine (shapeCast_apply _ shapeCasts_S4096x1x256_S4096x256 (ix2 a d) (ix3 a (0 : Fin 1) d) ?_).trans ?_
  · rewrite [Shape.rowMajor_val_three, Shape.rowMajor_val_two]
    show (a.val * 1 + 0) * 256 + d.val = a.val * 256 + d.val
    omega
  · refine extractStridedSlice_apply _ x hs (ix3 a (0 : Fin 1) d) (ix3 a v d) fun b => ?_
    match b with
    | ⟨0, _⟩ => show a.val = 0 + a.val; omega
    | ⟨1, _⟩ => show v.val = v.val + 0; omega
    | ⟨2, _⟩ => show d.val = 0 + d.val; omega

/-- Row j of the stack is view 0 of sample j below 4096 and view 1 of sample j - 4096 from there on. -/
theorem stackT_apply (x : S4096x2x256.Idx → EReal) (j : Fin 8192) (d : Fin 256) :
    stackT x (ix2 j d) = Cert.Spec.feat (Cert.Spec.featOf x) j d := by
  unfold stackT Cert.Spec.feat
  rw [truncf_apply]
  by_cases h : j.val < 4096
  · rw [dif_pos h]
    refine (concatenate_pair_apply_left (t := S8192x256) (s₁ := S4096x256) (s₂ := S4096x256) (0 : Fin 2) _ _
      concatenates_S4096x256_S4096x256_S8192x256_d0 (ix2 j d) rfl (ix2 (⟨j.val, h⟩ : Fin 4096) d) fun b => ?_).trans ?_
    · match b with
      | ⟨0, _⟩ => rfl
      | ⟨1, _⟩ => rfl
    · exact view_apply x 0 _ rfl _ _ d
  · rw [dif_neg h]
    have hj := j.isLt
    refine (concatenate_pair_apply_right (t := S8192x256) (s₁ := S4096x256) (s₂ := S4096x256) (0 : Fin 2) _ _
      concatenates_S4096x256_S4096x256_S8192x256_d0 (ix2 j d) rfl rfl (ix2 (⟨j.val - 4096, by omega⟩ : Fin 4096) d)
      (fun b hb => ?_) ?_).trans ?_
    · match b with
      | ⟨0, _⟩ => exact absurd rfl hb
      | ⟨1, _⟩ => rfl
    · show j.val - 4096 + 4096 = j.val
      omega
    · exact view_apply x 1 _ rfl _ _ d

/-- A per-sample integer array joined to itself. -/
def twiceT (v : S4096.Idx → BitVec 32) : S8192.Idx → BitVec 32 :=
  concatenate S8192 0 [⟨S4096, v⟩, ⟨S4096, v⟩] concatenates_S4096_S4096_S8192_d0

/-- Entry j of the joined array is sample j below 4096 and sample j - 4096 from there on. -/
theorem twiceT_apply (v : S4096.Idx → BitVec 32) (j : Fin 8192) :
    twiceT v (ix1 j) = Cert.Spec.twice (Cert.Spec.intsOf v) j := by
  unfold twiceT Cert.Spec.twice
  by_cases h : j.val < 4096
  · rw [dif_pos h]
    exact concatenate_pair_apply_left (t := S8192) (s₁ := S4096) (s₂ := S4096) (0 : Fin 1) _ _
      concatenates_S4096_S4096_S8192_d0 (ix1 j) rfl (ix1 (⟨j.val, h⟩ : Fin 4096)) fun b => by
        match b with
        | ⟨0, _⟩ => rfl
  · rw [dif_neg h]
    have hj := j.isLt
    have hlt : j.val - 4096 < 4096 := by omega
    exact concatenate_pair_apply_right (t := S8192) (s₁ := S4096) (s₂ := S4096) (0 : Fin 1) _ _
      concatenates_S4096_S4096_S8192_d0 (ix1 j) rfl rfl (ix1 (⟨j.val - 4096, hlt⟩ : Fin 4096))
      (fun b hb => absurd (Fin.ext (by have hb1 : b.val < 1 := b.isLt; show b.val = 0; omega)) hb)
      (by show j.val - 4096 + 4096 = j.val; omega)

/-- The joined array laid out as a column and as a row, read at an entry. -/
theorem col_apply (y : S8192.Idx → BitVec 32) (j : Fin 8192) :
    shapeCast S8192x1 y shapeCasts_S8192_S8192x1 (ix2 j (0 : Fin 1)) = y (ix1 j) := by
  refine shapeCast_apply y shapeCasts_S8192_S8192x1 (ix2 j (0 : Fin 1)) (ix1 j) ?_
  rewrite [Shape.rowMajor_val_one, Shape.rowMajor_val_two]
  show j.val = j.val * 1 + 0
  omega

/-- The same for the row layout. -/
theorem row_apply (y : S8192.Idx → BitVec 32) (j : Fin 8192) :
    shapeCast S1x8192 y shapeCasts_S8192_S1x8192 (ix2 (0 : Fin 1) j) = y (ix1 j) := by
  refine shapeCast_apply y shapeCasts_S8192_S1x8192 (ix2 (0 : Fin 1) j) (ix1 j) ?_
  rewrite [Shape.rowMajor_val_one, Shape.rowMajor_val_two]
  show j.val = 0 * 8192 + j.val
  omega

/-- The label column, the camera column, the label row and the camera row are layouts of the joined arguments. -/
theorem v8_eq (c : Dev nD) : (V1 m c main_v8 : S8192x1.Idx → BitVec 32)
    = shapeCast S8192x1 (twiceT (m ((c : Thread nD τ).loc main_arg1))) shapeCasts_S8192_S8192x1 := by
  dsimp only [V1, W1, W0, Gen.hostOps0]
  after_results
  rfl

theorem v9_eq (c : Dev nD) : (V1 m c main_v9 : S8192x1.Idx → BitVec 32)
    = shapeCast S8192x1 (twiceT (m ((c : Thread nD τ).loc main_arg2))) shapeCasts_S8192_S8192x1 := by
  dsimp only [V1, W1, W0, Gen.hostOps0]
  after_results
  rfl

theorem v10_eq (c : Dev nD) : (V1 m c main_v10 : S1x8192.Idx → BitVec 32)
    = shapeCast S1x8192 (twiceT (m ((c : Thread nD τ).loc main_arg1))) shapeCasts_S8192_S1x8192 := by
  dsimp only [V1, W1, W0, Gen.hostOps0]
  after_results
  rfl

theorem v11_eq (c : Dev nD) : (V1 m c main_v11 : S1x8192.Idx → BitVec 32)
    = shapeCast S1x8192 (twiceT (m ((c : Thread nD τ).loc main_arg2))) shapeCasts_S8192_S1x8192 := by
  dsimp only [V1, W1, W0, Gen.hostOps0]
  after_results
  rfl

/-! ## Each block where its window's rectangle puts it -/

/-- The printed index maps over the grid: the row windows move with the point, the whole-array windows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The query block: rows 128 t to 128 t + 127 of the stacked features. -/
theorem blk_q (c : Dev nD) (t : Fin cfg0.N) (p : Fin 128) (d : Fin 256) :
    (iblk m c 0 t : Vec Ideal S128x256 .bf16) (ix2 p d) = Cert.Spec.feat (feats m c) (grow t p) d := by
  obtain ⟨h0, h1, -⟩ := idx_facts t
  unfold iblk
  rw [View.read_apply]
  show V1 m c main_v5 (((cfg0.win 0).blk t).view.emb (ix2 p d)) = _
  have e : ((cfg0.win 0).blk t).view.emb (ix2 p d) = (ix2 (grow t p) d : S8192x256.Idx) := by
    funext a
    apply Fin.ext
    match a with
    | ⟨0, _⟩ => show win0_0.index t (0 : Fin 2) * 128 + 1 * p.val = t.val * 128 + p.val; rw [h0]; omega
    | ⟨1, _⟩ => show win0_0.index t (1 : Fin 2) * 256 + 1 * d.val = d.val; rw [h1]; omega
  exact (congrArg (V1 m c main_v5) e).trans ((congrFun (v5_eq m c) _).trans (stackT_apply _ _ _))
/-- The key block: all of the stacked features, at every point. -/
theorem blk_k (c : Dev nD) (t : Fin cfg0.N) (j : Fin 8192) (d : Fin 256) :
    (iblk m c 1 t : Vec Ideal S8192x256 .bf16) (ix2 j d) = Cert.Spec.feat (feats m c) j d := by
  obtain ⟨-, -, h0, h1, -⟩ := idx_facts t
  unfold iblk
  rw [View.read_apply]
  show V1 m c main_v5 (((cfg0.win 1).blk t).view.emb (ix2 j d)) = _
  have e : ((cfg0.win 1).blk t).view.emb (ix2 j d) = (ix2 j d : S8192x256.Idx) := by
    funext a
    apply Fin.ext
    match a with
    | ⟨0, _⟩ => show win0_1.index t (0 : Fin 2) * 8192 + 1 * j.val = j.val; rw [h0]; omega
    | ⟨1, _⟩ => show win0_1.index t (1 : Fin 2) * 256 + 1 * d.val = d.val; rw [h1]; omega
  exact (congrArg (V1 m c main_v5) e).trans ((congrFun (v5_eq m c) _).trans (stackT_apply _ _ _))
/-- The rows' labels, as a column. -/
theorem blk_lr (c : Dev nD) (t : Fin cfg0.N) (p : Fin 128) :
    (iblk m c 2 t : Vec Ideal S128x1 .i32) (ix2 p 0) = Cert.Spec.twice (labs m c) (grow t p) := by
  obtain ⟨-, -, -, -, h0, h1, -⟩ := idx_facts t
  unfold iblk
  rw [View.read_apply]
  show V1 m c main_v8 (((cfg0.win 2).blk t).view.emb (ix2 p 0)) = _
  have e : ((cfg0.win 2).blk t).view.emb (ix2 p 0) = (ix2 (grow t p) (0 : Fin 1) : S8192x1.Idx) := by
    funext a
    apply Fin.ext
    match a with
    | ⟨0, _⟩ => show win0_2.index t (0 : Fin 2) * 128 + 1 * p.val = t.val * 128 + p.val; rw [h0]; omega
    | ⟨1, _⟩ => show win0_2.index t (1 : Fin 2) * 1 + 1 * 0 = 0; rw [h1]
  exact (congrArg (V1 m c main_v8) e).trans ((congrFun (v8_eq m c) _).trans ((col_apply _ _).trans (twiceT_apply _ _)))
/-- The rows' camera ids, as a column. -/
theorem blk_cr (c : Dev nD) (t : Fin cfg0.N) (p : Fin 128) :
    (iblk m c 3 t : Vec Ideal S128x1 .i32) (ix2 p 0) = Cert.Spec.twice (cams m c) (grow t p) := by
  obtain ⟨-, -, -, -, -, -, h0, h1, -⟩ := idx_facts t
  unfold iblk
  rw [View.read_apply]
  show V1 m c main_v9 (((cfg0.win 3).blk t).view.emb (ix2 p 0)) = _
  have e : ((cfg0.win 3).blk t).view.emb (ix2 p 0) = (ix2 (grow t p) (0 : Fin 1) : S8192x1.Idx) := by
    funext a
    apply Fin.ext
    match a with
    | ⟨0, _⟩ => show win0_3.index t (0 : Fin 2) * 128 + 1 * p.val = t.val * 128 + p.val; rw [h0]; omega
    | ⟨1, _⟩ => show win0_3.index t (1 : Fin 2) * 1 + 1 * 0 = 0; rw [h1]
  exact (congrArg (V1 m c main_v9) e).trans ((congrFun (v9_eq m c) _).trans ((col_apply _ _).trans (twiceT_apply _ _)))
/-- All labels, as a row. -/
theorem blk_lc (c : Dev nD) (t : Fin cfg0.N) (j : Fin 8192) :
    (iblk m c 4 t : Vec Ideal S1x8192 .i32) (ix2 0 j) = Cert.Spec.twice (labs m c) j := by
  obtain ⟨-, -, -, -, -, -, -, -, h0, h1, -⟩ := idx_facts t
  unfold iblk
  rw [View.read_apply]
  show V1 m c main_v10 (((cfg0.win 4).blk t).view.emb (ix2 0 j)) = _
  have e : ((cfg0.win 4).blk t).view.emb (ix2 0 j) = (ix2 (0 : Fin 1) j : S1x8192.Idx) := by
    funext a
    apply Fin.ext
    match a with
    | ⟨0, _⟩ => show win0_4.index t (0 : Fin 2) * 1 + 1 * 0 = 0; rw [h0]
    | ⟨1, _⟩ => show win0_4.index t (1 : Fin 2) * 8192 + 1 * j.val = j.val; rw [h1]; omega
  exact (congrArg (V1 m c main_v10) e).trans ((congrFun (v10_eq m c) _).trans ((row_apply _ _).trans (twiceT_apply _ _)))
/-- All camera ids, as a row. -/
theorem blk_cc (c : Dev nD) (t : Fin cfg0.N) (j : Fin 8192) :
    (iblk m c 5 t : Vec Ideal S1x8192 .i32) (ix2 0 j) = Cert.Spec.twice (cams m c) j := by
  obtain ⟨-, -, -, -, -, -, -, -, -, -, h0, h1⟩ := idx_facts t
  unfold iblk
  rw [View.read_apply]
  show V1 m c main_v11 (((cfg0.win 5).blk t).view.emb (ix2 0 j)) = _
  have e : ((cfg0.win 5).blk t).view.emb (ix2 0 j) = (ix2 (0 : Fin 1) j : S1x8192.Idx) := by
    funext a
    apply Fin.ext
    match a with
    | ⟨0, _⟩ => show win0_5.index t (0 : Fin 2) * 1 + 1 * 0 = 0; rw [h0]
    | ⟨1, _⟩ => show win0_5.index t (1 : Fin 2) * 8192 + 1 * j.val = j.val; rw [h1]; omega
  exact (congrArg (V1 m c main_v11) e).trans ((congrFun (v11_eq m c) _).trans ((row_apply _ _).trans (twiceT_apply _ _)))

end Cert.KernelIdeal.Hand

end
-- ==== Proof.KerRow.lean ====
/-
  Entry p of the block the kernel stores at a grid point is the row loss `1 * rowK + halfW * rowK` of the point's p-th
  row: its logits against all key rows, its label and label-and-camera marks, and the mark of its diagonal entry.
-/
import proofs.«410527_j80101140070638_3_alg».proof.Proof.KiPay
import proofs.«410527_j80101140070638_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.IdealHost

noncomputable section

namespace Cert.KernelIdeal.RowValue

open Cert.KernelIdeal Cert.KernelIdeal.Gen Cert.KernelIdeal.Hand Idealize.ShloMosaic Idealize.ShloMosaic.ValueIdx Idealize.SL.Sem

/-- Row p of the point i is row (i 0) * 128 + p of the whole matrix: the mark of its diagonal entry. -/
def dgRow (i : grid0.Coords) (p : Fin 128) : Fin 8192 → Bool := fun j => decide ((i 0).val * 128 + p.val = j.val)

/-- Its logits: the inner product of query row p with key row j times the inverse temperature, the fill on the diagonal. -/
def lRow (i : grid0.Coords) (q : Vec Ideal S128x256 .bf16) (k : Vec Ideal S8192x256 .bf16) (p : Fin 128) : Fin 8192 → EReal :=
  fun j => if dgRow i p j then Cert.Spec.fill else (∑ d : Fin 256, q (ix2 p d) * k (ix2 j d)) * Cert.Spec.invT

/-- Same label as column j. -/
def posIdRow (lr : Vec Ideal S128x1 .i32) (lc : Vec Ideal S1x8192 .i32) (p : Fin 128) : Fin 8192 → Bool :=
  fun j => decide (lr (ix2 p 0) = lc (ix2 0 j))

/-- Same label and same camera as column j. -/
def posCamRow (lr cr : Vec Ideal S128x1 .i32) (lc cc : Vec Ideal S1x8192 .i32) (p : Fin 128) : Fin 8192 → Bool :=
  fun j => decide (lr (ix2 p 0) = lc (ix2 0 j)) && decide (cr (ix2 p 0) = cc (ix2 0 j))

/-! ## Layout operations and constants read at an index -/

section Layout
variable {α : Type}

/-- A column [128,1] broadcast over the lanes reads, at (p, j), the column's row p. -/
theorem bcol_apply (v : S128x1.Idx → α) (h : S128x1.Broadcasts S128x8192) (p : Fin 128) (j : Fin 8192) :
    broadcastTo S128x8192 v h (ix2 p j) = v (ix2 p 0) := by
  refine broadcastTo_apply v h (ix2 p j) (ix2 p 0) fun ax => ?_
  match ax with
  | ⟨0, _⟩ => rfl
  | ⟨1, _⟩ => rfl

/-- A row [1,8192] broadcast over the sublanes reads, at (p, j), the row's lane j. -/
theorem brow_apply (v : S1x8192.Idx → α) (h : S1x8192.Broadcasts S128x8192) (p : Fin 128) (j : Fin 8192) :
    broadcastTo S128x8192 v h (ix2 p j) = v (ix2 0 j) :=
  broadcastTo_1b_ab_apply v h p j

/-- A vector [128] viewed as a column [128,1] reads, at (p, 0), the vector's entry p. -/
theorem tocol_apply (v : S128.Idx → α) (h : S128.ShapeCasts S128x1) (p : Fin 128) (u : Fin 1) :
    shapeCast S128x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column [128,1] viewed as a vector [128] reads, at p, the column's row p. -/
theorem ofcol_apply (v : S128x1.Idx → α) (h : S128x1.ShapeCasts S128) (p : Fin 128) :
    shapeCast S128 v h (ix1 p) = v (ix2 p 0) :=
  shapeCast_apply v h _ _ (by
    rw [Shape.rowMajor_val_two, Shape.rowMajor_val_one]
    show p.val * 1 + 0 = p.val
    rw [Nat.mul_one, Nat.add_zero])

end Layout

/-- The float pattern of minus infinity is the bottom element. -/
theorem ofBits_negInf : Ideal.ofBits .f32 0xFF800000#32 = ⊥ := by simp [Ideal.ofBits, Ideal.ieee]

/-- The named scale is the inverse temperature. -/
theorem inv_temp_eq : Named.named (F := Ideal) Cert.KernelIdeal.κ "inv_temp" (φ := .f32) 0x41200000#32 = Cert.Spec.invT :=
  IdealRules.named_const.ideal_named_scalar _ _ _ _ rfl

/-- Row n * 128 + p meets column j, as 32-bit words: no wrap below 2 ^ 32. -/
theorem diag_word (n p j : Nat) (hn : n < 64) (hp : p < 128) (hj : j < 8192) :
    (BitVec.ofNat 32 p + BitVec.ofNat 32 n * 128#32 == BitVec.ofNat 32 j) = decide (n * 128 + p = j) := by
  rw [Bool.eq_iff_iff, beq_iff_eq, decide_eq_true_iff, ← BitVec.toNat_inj]
  simp only [BitVec.toNat_add, BitVec.toNat_mul, BitVec.toNat_ofNat]
  omega

/-! ## The marks -/

/-- The conjunction of two marks, as one-bit words. -/
theorem andi_ofBool (a b : Bool) : IntOp.andi (BitVec.ofBool a) (BitVec.ofBool b) = BitVec.ofBool (a && b) := by
  cases a <;> cases b <;> rfl

/-- A mark flipped by the all-ones word is its negation. -/
theorem xori_ofBool_one (a : Bool) : IntOp.xori (BitVec.ofBool a) 1#1 = BitVec.ofBool (!a) := by
  cases a <;> rfl

/-- A select on a mark's word is the choice by the mark. -/
theorem select_ofBool {α : Type} (c : Bool) (a b : α) : Scalar.select (BitVec.ofBool c) a b = if c then a else b := by
  cases c
  · exact select_zero a b
  · exact select_one a b

/-- The diagonal mark at (p, j): row (i 0) * 128 + p meets column j. -/
theorem pay2_apply (i : grid0.Coords) (p : Fin 128) (j : Fin 8192) :
    k0_pay2 i (ix2 p j) = BitVec.ofBool (dgRow i p j) := by
  unfold k0_pay2
  simp only []
  show IntOp.cmpi .eq (broadcastTo S128x8192 _ _ (ix2 p j)) (broadcastTo S128x8192 _ _ (ix2 p j)) = _
  rw [bcol_apply, brow_apply]
  show IntOp.cmpi .eq (IntOp.addi (iota .tc S128x1 32 [0] _ (ix2 p 0)) _) (iota .tc S1x8192 32 [1] _ (ix2 0 j)) = _
  rw [iota_single_apply, iota_single_apply]
  exact congrArg BitVec.ofBool (diag_word (i 0).val p.val j.val (i 0).isLt p.isLt j.isLt)

/-- Equality of two 32-bit words as a one-bit word. -/
theorem cmpi_eq_ofBool (a b : BitVec 32) : IntOp.cmpi .eq a b = BitVec.ofBool (decide (a = b)) :=
  congrArg BitVec.ofBool (beq_eq_decide a b)

/-- A column of words against a row of words, compared lane by lane: at (p, j) the column's row p against the row's lane j. -/
theorem colrow_eq_apply (c : Vec Ideal S128x1 .i32) (r : Vec Ideal S1x8192 .i32) (p : Fin 128) (j : Fin 8192) :
    cmpi .eq (broadcastTo S128x8192 (shapeCast S128x1 c shapeCasts_S128x1_S128x1) broadcasts_S128x1_S128x8192)
        (broadcastTo S128x8192 (shapeCast S1x8192 r shapeCasts_S1x8192_S1x8192) broadcasts_S1x8192_S128x8192) (ix2 p j)
      = BitVec.ofBool (decide (c (ix2 p 0) = r (ix2 0 j))) := by
  rw [shapeCast_self, shapeCast_self]
  show IntOp.cmpi .eq (broadcastTo S128x8192 _ _ (ix2 p j)) (broadcastTo S128x8192 _ _ (ix2 p j)) = _
  rw [bcol_apply, brow_apply]
  exact cmpi_eq_ofBool _ _

/-- The label mark at (p, j): row p's label is column j's. -/
theorem pay5_apply (lr : Vec Ideal S128x1 .i32) (lc : Vec Ideal S1x8192 .i32) (p : Fin 128) (j : Fin 8192) :
    k0_pay5 (F := Ideal) lr lc (ix2 p j) = BitVec.ofBool (posIdRow lr lc p j) := by
  unfold k0_pay5
  exact colrow_eq_apply lr lc p j

/-- The label-and-camera mark at (p, j). -/
theorem pay6_apply (lr cr : Vec Ideal S128x1 .i32) (lc cc : Vec Ideal S1x8192 .i32) (p : Fin 128) (j : Fin 8192) :
    k0_pay6 (F := Ideal) lr cr lc cc (ix2 p j) = BitVec.ofBool (posCamRow lr cr lc cc p j) := by
  unfold k0_pay6
  show IntOp.andi (k0_pay5 (F := Ideal) lr lc (ix2 p j)) (cmpi .eq _ _ (ix2 p j)) = _
  rw [pay5_apply, colrow_eq_apply]
  exact andi_ofBool _ _

/-- The label mark off the diagonal at (p, j). -/
theorem pay7_apply (i : grid0.Coords) (lr : Vec Ideal S128x1 .i32) (lc : Vec Ideal S1x8192 .i32) (p : Fin 128) (j : Fin 8192) :
    k0_pay7 (F := Ideal) i lr lc (ix2 p j) = BitVec.ofBool (Cert.Spec.pm (posIdRow lr lc p) (dgRow i p) j) := by
  unfold k0_pay7
  show IntOp.andi (k0_pay5 (F := Ideal) lr lc (ix2 p j)) (IntOp.xori (k0_pay2 i (ix2 p j)) 1#1) = _
  rw [pay5_apply, pay2_apply, xori_ofBool_one]
  exact andi_ofBool _ _

/-- The mark of a different label at (p, j). -/
theorem pay8_apply (lr : Vec Ideal S128x1 .i32) (lc : Vec Ideal S1x8192 .i32) (p : Fin 128) (j : Fin 8192) :
    k0_pay8 (F := Ideal) lr lc (ix2 p j) = BitVec.ofBool (!posIdRow lr lc p j) := by
  unfold k0_pay8
  show IntOp.xori (k0_pay5 (F := Ideal) lr lc (ix2 p j)) 1#1 = _
  rw [pay5_apply]
  exact xori_ofBool_one _

/-- A mark off the diagonal at (p, j), from the diagonal's mark and the positives' mark there. -/
theorem pay10_apply (v14 v36 : IVec S128x8192 1) (pos dg : Fin 8192 → Bool) (p : Fin 128) (j : Fin 8192)
    (h14 : v14 (ix2 p j) = BitVec.ofBool (dg j)) (h36 : v36 (ix2 p j) = BitVec.ofBool (pos j)) :
    k0_pay10 v14 v36 (ix2 p j) = BitVec.ofBool (Cert.Spec.pm pos dg j) := by
  unfold k0_pay10
  show IntOp.andi (v36 (ix2 p j)) (IntOp.xori (v14 (ix2 p j)) 1#1) = _
  rw [h14, h36, xori_ofBool_one]
  exact andi_ofBool _ _

/-! ## The logits, their lane maximum and the exponentials -/

section Matmul

/-- The query operand's row coordinate is the result's row. -/
theorem lhs_dot_0 (x : S128x8192.Idx) (c : dot_S128x256_S8192x256_S128x8192_1_1_0_0_n_n.contr.Idx) :
    (dot_S128x256_S8192x256_S128x8192_1_1_0_0_n_n.lhsIdx x c 0).val = (x 0).val := by
  unfold DotDims.lhsIdx
  rw [dif_neg (show ¬(0 : Fin S128x256.rank) ∈ dot_S128x256_S8192x256_S128x8192_1_1_0_0_n_n.lhsBatch by decide),
    dif_pos (show (0 : Fin S128x256.rank) ∈ dot_S128x256_S8192x256_S128x8192_1_1_0_0_n_n.lhsNonContracting by decide)]
  rfl

/-- The query operand's feature coordinate is the contraction's. -/
theorem lhs_dot_1 (x : S128x8192.Idx) (c : dot_S128x256_S8192x256_S128x8192_1_1_0_0_n_n.contr.Idx) :
    (dot_S128x256_S8192x256_S128x8192_1_1_0_0_n_n.lhsIdx x c 1).val = (c ⟨0, by decide⟩).val :=
  dot_S128x256_S8192x256_S128x8192_1_1_0_0_n_n.lhsIdx_val_of_single rfl x c

/-- The key operand's row coordinate is the result's column. -/
theorem rhs_dot_0 (x : S128x8192.Idx) (c : dot_S128x256_S8192x256_S128x8192_1_1_0_0_n_n.contr.Idx) :
    (dot_S128x256_S8192x256_S128x8192_1_1_0_0_n_n.rhsIdx x c 0).val = (x 1).val := by
  unfold DotDims.rhsIdx
  rw [dif_neg (show ¬(0 : Fin S8192x256.rank) ∈ dot_S128x256_S8192x256_S128x8192_1_1_0_0_n_n.rhsBatch by decide),
    dif_pos (show (0 : Fin S8192x256.rank) ∈ dot_S128x256_S8192x256_S128x8192_1_1_0_0_n_n.rhsNonContracting by decide)]
  rfl

/-- The key operand's feature coordinate is the contraction's. -/
theorem rhs_dot_1 (x : S128x8192.Idx) (c : dot_S128x256_S8192x256_S128x8192_1_1_0_0_n_n.contr.Idx) :
    (dot_S128x256_S8192x256_S128x8192_1_1_0_0_n_n.rhsIdx x c 1).val = (c ⟨0, by decide⟩).val :=
  dot_S128x256_S8192x256_S128x8192_1_1_0_0_n_n.rhsIdx_val_of_single rfl x c

/-- The product of the query rows with the key rows, into a zero accumulator: at (p, j) the inner product of query row p
    and key row j. -/
theorem mm_apply (q : FVec Ideal S128x256 .bf16) (k : FVec Ideal S8192x256 .bf16) (p : Fin 128) (j : Fin 8192) :
    matmul dot_S128x256_S8192x256_S128x8192_1_1_0_0_n_n none q k (constant S128x8192 .f32 0x00000000#32) (ix2 p j)
      = ∑ d : Fin 256, q (ix2 p d) * k (ix2 j d) := by
  simp only [matmul]
  rw [Ideal.matmul_constant_zero_apply,
    ← Equiv.sum_comp (contrEquiv1 dot_S128x256_S8192x256_S128x8192_1_1_0_0_n_n 256 rfl rfl).symm]
  refine Finset.sum_congr rfl fun d _ => ?_
  have hd := contrEquiv1_symm_val dot_S128x256_S8192x256_S128x8192_1_1_0_0_n_n 256 rfl rfl d
  have el : dot_S128x256_S8192x256_S128x8192_1_1_0_0_n_n.lhsIdx (ix2 p j)
      ((contrEquiv1 dot_S128x256_S8192x256_S128x8192_1_1_0_0_n_n 256 rfl rfl).symm d) = ix2 p d :=
    funext fun a => Fin.ext (by
      match a with
      | ⟨0, _⟩ => exact lhs_dot_0 _ _
      | ⟨1, _⟩ => exact (lhs_dot_1 _ _).trans hd)
  have er : dot_S128x256_S8192x256_S128x8192_1_1_0_0_n_n.rhsIdx (ix2 p j)
      ((contrEquiv1 dot_S128x256_S8192x256_S128x8192_1_1_0_0_n_n 256 rfl rfl).symm d) = ix2 j d :=
    funext fun a => Fin.ext (by
      match a with
      | ⟨0, _⟩ => exact rhs_dot_0 _ _
      | ⟨1, _⟩ => exact (rhs_dot_1 _ _).trans hd)
  rw [el, er]

end Matmul

/-- The lane sum of a block, kept as a column: at row p the sum over the lanes of the block's row p. -/
theorem rsum_apply (x : FVec Ideal S128x8192 .f32) (p : Fin 128) (u : Fin 1) :
    shapeCast S128x1 (multiReduction .add [1] S128 x 0x00000000#32 reduces_S128x8192_S128 (.inl rfl) rfl) shapeCasts_S128_S128x1 (ix2 p u)
      = ∑ j : Fin 8192, x (ix2 p j) := by
  rw [tocol_apply]
  refine (Ideal.multiReduction_add_single x _ reduces_S128x8192_S128 _ _ (ix1 p)).trans ?_
  show ∑ j : Fin 8192, x (reduces_S128x8192_S128.lift (ix1 p) j) = _
  refine Finset.sum_congr rfl fun j _ => ?_
  exact congrArg x (funext fun a => Fin.ext (by match a with | ⟨0, _⟩ => rfl | ⟨1, _⟩ => rfl))

/-- The lane maximum of a block, kept as a column: at row p the maximum of the block's row p, from the bottom element. -/
theorem rmax_apply (x : FVec Ideal S128x8192 .f32) (p : Fin 128) (u : Fin 1) :
    shapeCast S128x1 (multiReduction .maximumf [1] S128 x 0xFF800000#32 reduces_S128x8192_S128 (.inl rfl) rfl) shapeCasts_S128_S128x1 (ix2 p u)
      = Cert.Spec.rowMax (fun j => x (ix2 p j)) := by
  rw [tocol_apply]
  refine (Ideal.multiReduction_maximumf_single x _ reduces_S128x8192_S128 _ _ (ix1 p)).trans ?_
  show (Finset.univ : Finset (Fin 8192)).fold max (Ideal.ofBits .f32 0xFF800000#32) (x ∘ reduces_S128x8192_S128.lift (ix1 p)) = _
  rw [ofBits_negInf]
  unfold Cert.Spec.rowMax
  refine congrArg (fun f => Finset.fold max ⊥ f (Finset.univ : Finset (Fin 8192))) (funext fun j => ?_)
  exact congrArg x (funext fun a => Fin.ext (by match a with | ⟨0, _⟩ => rfl | ⟨1, _⟩ => rfl))

/-- The block of logits: the scaled products, the fill on the diagonal. -/
def lgBlock (i : grid0.Coords) (q : Vec Ideal S128x256 .bf16) (k : Vec Ideal S8192x256 .bf16) : FVec Ideal S128x8192 .f32 :=
  select (k0_pay2 i) (broadcast S128x8192 (Scalar.ofBits .f32 0xF149F2CA#32))
    (mulf (matmul dot_S128x256_S8192x256_S128x8192_1_1_0_0_n_n none (shapeCast S128x256 q shapeCasts_S128x256_S128x256 : FVec Ideal S128x256 .bf16)
        (shapeCast S8192x256 k shapeCasts_S8192x256_S8192x256 : FVec Ideal S8192x256 .bf16) (constant S128x8192 .f32 0x00000000#32))
      (broadcast S128x8192 (Named.named κ "inv_temp" 0x41200000#32)))

/-- The block of logits at (p, j) is row p's logit against key row j. -/
theorem lgBlock_apply (i : grid0.Coords) (q : Vec Ideal S128x256 .bf16) (k : Vec Ideal S8192x256 .bf16) (p : Fin 128) (j : Fin 8192) :
    lgBlock i q k (ix2 p j) = lRow i q k p j := by
  unfold lgBlock lRow
  rw [select_apply, pay2_apply, select_ofBool, mulf_apply, broadcast_apply, broadcast_apply, shapeCast_self, shapeCast_self,
    mm_apply, inv_temp_eq]
  rfl

/-- The shifted logits are the block of logits less its lane maximum. -/
theorem pay3_eq (i : grid0.Coords) (q : Vec Ideal S128x256 .bf16) (k : Vec Ideal S8192x256 .bf16) :
    k0_pay3 i q k = subf (lgBlock i q k)
      (broadcastTo S128x8192 (shapeCast S128x1 (multiReduction .maximumf [1] S128 (lgBlock i q k) 0xFF800000#32
        reduces_S128x8192_S128 (.inl rfl) rfl) shapeCasts_S128_S128x1) broadcasts_S128x1_S128x8192) := rfl

/-- The shifted logits at (p, j): row p's logit less the row's maximum. -/
theorem pay3_apply (i : grid0.Coords) (q : Vec Ideal S128x256 .bf16) (k : Vec Ideal S8192x256 .bf16) (p : Fin 128) (j : Fin 8192) :
    k0_pay3 i q k (ix2 p j) = Cert.Spec.sh (lRow i q k p) j := by
  have hrow : (fun j => lgBlock i q k (ix2 p j)) = lRow i q k p := funext fun j => lgBlock_apply i q k p j
  rw [pay3_eq, subf_apply, bcol_apply, rmax_apply, lgBlock_apply, hrow]
  rfl

/-- Their exponentials at (p, j). -/
theorem pay4_apply (i : grid0.Coords) (q : Vec Ideal S128x256 .bf16) (k : Vec Ideal S8192x256 .bf16) (p : Fin 128) (j : Fin 8192) :
    k0_pay4 i q k (ix2 p j) = Cert.Spec.ex (lRow i q k p) j := by
  unfold k0_pay4
  show Ideal.exp (k0_pay3 i q k (ix2 p j)) = _
  rw [pay3_apply]
  rfl

/-! ## The row sums the kernel forms, as functions of a mark and a block -/

/-- The lane sum of a block over the lanes a mark keeps, as a column. -/
def msum (m : IVec S128x8192 1) (x : FVec Ideal S128x8192 .f32) : FVec Ideal S128x1 .f32 :=
  shapeCast S128x1 (multiReduction .add [1] S128 (select m x (broadcast S128x8192 (Scalar.ofBits .f32 0x00000000#32))) 0x00000000#32
    reduces_S128x8192_S128 (.inl rfl) rfl) shapeCasts_S128_S128x1

/-- The number of lanes a mark keeps, as a column of floats. -/
def mcnt (m : IVec S128x8192 1) : FVec Ideal S128x1 .f32 :=
  shapeCast S128x1 (multiReduction .add [1] S128 (sitofp .f32 (extui 32 m natLt_1_32)) 0x00000000#32
    reduces_S128x8192_S128 (.inl rfl) rfl) shapeCasts_S128_S128x1

/-- The guarded quotient (A - B) / max (C, 1) where C is positive, zero elsewhere. -/
def gq (A B C : FVec Ideal S128x1 .f32) : FVec Ideal S128x1 .f32 :=
  select (cmpf .ogt C (broadcast S128x1 (Scalar.ofBits .f32 0x00000000#32)))
    (divf (subf A B) (maximumf C (broadcast S128x1 (Scalar.ofBits .f32 0x3F800000#32))))
    (broadcast S128x1 (Scalar.ofBits .f32 0x00000000#32))

/-- The logarithm of the exponentials plus a column, on the lanes a mark keeps; of one elsewhere. -/
def lterm (m : IVec S128x8192 1) (e : FVec Ideal S128x8192 .f32) (S : FVec Ideal S128x1 .f32) : FVec Ideal S128x8192 .f32 :=
  log (select m (addf e (broadcastTo S128x8192 S broadcasts_S128x1_S128x8192)) (broadcast S128x8192 (Scalar.ofBits .f32 0x3F800000#32)))

/-- The marked lane sum at row p: the sum over the lanes the mark keeps. -/
theorem msum_apply (m : IVec S128x8192 1) (x : FVec Ideal S128x8192 .f32) (b : Fin 8192 → Bool) (f : Fin 8192 → EReal)
    (p : Fin 128) (u : Fin 1) (hm : ∀ j, m (ix2 p j) = BitVec.ofBool (b j)) (hx : ∀ j, x (ix2 p j) = f j) :
    msum m x (ix2 p u) = ∑ j, if b j then f j else 0 := by
  unfold msum
  rw [rsum_apply]
  refine Finset.sum_congr rfl fun j _ => ?_
  rw [select_apply, hm, hx, select_ofBool, broadcast_apply]
  exact congrArg (fun z => if b j then f j else z) Ideal.ofBits_zero_f32

/-- A mark's word, widened and read as a signed integer, is one or zero. -/
theorem sitofp_ofBool (b : Bool) :
    FloatOps.sitofp (F := Ideal) .f32 ((BitVec.ofBool b).setWidth 32) = if b then (1 : EReal) else 0 := by
  cases b
  · show (((0#32 : BitVec 32).toInt : ℝ) : EReal) = 0
    simp
  · show (((1#32 : BitVec 32).toInt : ℝ) : EReal) = 1
    simp

/-- The count at row p: the number of lanes the mark keeps. -/
theorem mcnt_apply (m : IVec S128x8192 1) (b : Fin 8192 → Bool) (p : Fin 128) (u : Fin 1)
    (hm : ∀ j, m (ix2 p j) = BitVec.ofBool (b j)) :
    mcnt m (ix2 p u) = ∑ j, if b j then (1 : EReal) else 0 := by
  unfold mcnt
  rw [rsum_apply]
  refine Finset.sum_congr rfl fun j _ => ?_
  rw [sitofp_apply, extui_apply, hm]
  exact sitofp_ofBool (b j)

/-- The guarded quotient at an index. -/
theorem gq_apply (A B C : FVec Ideal S128x1 .f32) (x : S128x1.Idx) :
    gq A B C x = if 0 < C x then Ideal.div (A x - B x) (max (C x) 1) else 0 := by
  unfold gq
  rw [select_apply, cmpf_apply, divf_apply, subf_apply, maximumf_apply, broadcast_apply, broadcast_apply]
  show Scalar.select (BitVec.ofBool (decide (Ideal.ofBits .f32 0x00000000#32 < C x)))
    (Ideal.div (A x - B x) (max (C x) (Ideal.ofBits .f32 0x3F800000#32))) (Ideal.ofBits .f32 0x00000000#32) = _
  rw [select_ofBool, Ideal.ofBits_zero_f32, Ideal.ofBits_one_f32]
  by_cases h : 0 < C x
  · rw [if_pos h, if_pos (decide_eq_true h)]
  · rw [if_neg h, if_neg (by simpa using h)]

/-- The logarithm term at (p, j). -/
theorem lterm_apply (m : IVec S128x8192 1) (e : FVec Ideal S128x8192 .f32) (S : FVec Ideal S128x1 .f32)
    (b : Fin 8192 → Bool) (p : Fin 128) (j : Fin 8192) (hm : m (ix2 p j) = BitVec.ofBool (b j)) :
    lterm m e S (ix2 p j) = Ideal.log (if b j then e (ix2 p j) + S (ix2 p 0) else 1) := by
  unfold lterm
  show Ideal.log (Scalar.select (m (ix2 p j)) (e (ix2 p j) + broadcastTo S128x8192 S _ (ix2 p j)) (Ideal.ofBits .f32 0x3F800000#32)) = _
  rw [hm, select_ofBool, bcol_apply, Ideal.ofBits_one_f32]

/-! ## A row's term from its three blocks -/

section Row
variable (l : Fin 8192 → EReal) (pos dg : Fin 8192 → Bool) (p : Fin 128)

/-- The sum of the exponentials over the lanes that are not positives, at row p. -/
theorem negsum_read (m : IVec S128x8192 1) (e : FVec Ideal S128x8192 .f32)
    (hm : ∀ j, m (ix2 p j) = BitVec.ofBool (!pos j)) (he : ∀ j, e (ix2 p j) = Cert.Spec.ex l j) (u : Fin 1) :
    msum m e (ix2 p u) = Cert.Spec.negSum l pos := by
  rw [msum_apply m e (fun j => !pos j) (Cert.Spec.ex l) p u hm he]
  unfold Cert.Spec.negSum
  refine Finset.sum_congr rfl fun j _ => ?_
  cases pos j <;> rfl

/-- The logarithm term of the row at lane j. -/
theorem logterm_read (m : IVec S128x8192 1) (e : FVec Ideal S128x8192 .f32) (S : FVec Ideal S128x1 .f32) (j : Fin 8192)
    (hm : m (ix2 p j) = BitVec.ofBool (Cert.Spec.pm pos dg j)) (he : e (ix2 p j) = Cert.Spec.ex l j)
    (hS : S (ix2 p 0) = Cert.Spec.negSum l pos) :
    lterm m e S (ix2 p j) = Cert.Spec.logTerm l pos dg j := by
  rw [lterm_apply m e S (Cert.Spec.pm pos dg) p j hm, he, hS]
  rfl

/-- The row's term: the guarded quotient of the two marked sums' difference by the count. -/
theorem rowK_read (LT SH : FVec Ideal S128x8192 .f32) (M : IVec S128x8192 1)
    (hLT : ∀ j, LT (ix2 p j) = Cert.Spec.logTerm l pos dg j) (hSH : ∀ j, SH (ix2 p j) = Cert.Spec.sh l j)
    (hM : ∀ j, M (ix2 p j) = BitVec.ofBool (Cert.Spec.pm pos dg j)) :
    gq (msum M LT) (msum M SH) (mcnt M) (ix2 p 0) = Cert.Spec.rowK l pos dg := by
  rw [gq_apply, msum_apply M LT (Cert.Spec.pm pos dg) (Cert.Spec.logTerm l pos dg) p 0 hM hLT,
    msum_apply M SH (Cert.Spec.pm pos dg) (Cert.Spec.sh l) p 0 hM hSH, mcnt_apply M (Cert.Spec.pm pos dg) p 0 hM]
  rfl

end Row

/-! ## The three payloads that form the row terms -/

/-- The label branch's column as the guarded quotient of its sums, times the float one. -/
theorem pay9_eq (v20 v21 : FVec Ideal S128x8192 .f32) (v38 v39 : IVec S128x8192 1) :
    k0_pay9 v20 v21 v38 v39 = mulf (broadcast S128x1 (Scalar.ofBits .f32 0x3F800000#32))
      (gq (msum v38 (lterm v38 v21 (msum v39 v21))) (msum v38 v20) (mcnt v38)) := rfl

/-- The camera branch's logarithm block. -/
theorem pay11_eq (v14 : IVec S128x8192 1) (v21 : FVec Ideal S128x8192 .f32) (v36 : IVec S128x8192 1) :
    k0_pay11 v14 v21 v36 = lterm (k0_pay10 v14 v36) v21 (msum (xori v36 (constantI S128x8192 1 1#1)) v21) := rfl

/-- The stored vector: the label branch's column plus the float one half times the camera branch's guarded quotient. -/
theorem pay1_eq (v20 : FVec Ideal S128x8192 .f32) (v70 : FVec Ideal S128x1 .f32) (v72 : IVec S128x8192 1) (v82 : FVec Ideal S128x8192 .f32) :
    k0_pay1 v20 v70 v72 v82 = shapeCast S128 (addf v70 (mulf (broadcast S128x1 (Scalar.ofBits .f32 0x3F000000#32))
      (gq (msum v72 v82) (msum v72 v20) (mcnt v72)))) shapeCasts_S128x1_S128 := rfl

section Pay
variable (l : Fin 8192 → EReal) (pos dg : Fin 8192 → Bool) (p : Fin 128)

/-- The label branch's column at row p is one times the row's term. -/
theorem pay9_apply (v20 v21 : FVec Ideal S128x8192 .f32) (v38 v39 : IVec S128x8192 1)
    (h20 : ∀ j, v20 (ix2 p j) = Cert.Spec.sh l j) (h21 : ∀ j, v21 (ix2 p j) = Cert.Spec.ex l j)
    (h38 : ∀ j, v38 (ix2 p j) = BitVec.ofBool (Cert.Spec.pm pos dg j)) (h39 : ∀ j, v39 (ix2 p j) = BitVec.ofBool (!pos j)) :
    k0_pay9 v20 v21 v38 v39 (ix2 p 0) = 1 * Cert.Spec.rowK l pos dg := by
  rw [pay9_eq, mulf_apply, broadcast_apply]
  rw [rowK_read l pos dg p _ v20 v38
    (fun j => logterm_read l pos dg p v38 v21 _ j (h38 j) (h21 j) (negsum_read l pos p v39 v21 h39 h21 0)) h20 h38]
  exact congrArg (· * Cert.Spec.rowK l pos dg) Ideal.ofBits_one_f32

/-- The camera branch's logarithm block at (p, j) is the row's logarithm term. -/
theorem pay11_apply (v14 : IVec S128x8192 1) (v21 : FVec Ideal S128x8192 .f32) (v36 : IVec S128x8192 1)
    (h14 : ∀ j, v14 (ix2 p j) = BitVec.ofBool (dg j)) (h21 : ∀ j, v21 (ix2 p j) = Cert.Spec.ex l j)
    (h36 : ∀ j, v36 (ix2 p j) = BitVec.ofBool (pos j)) (j : Fin 8192) :
    k0_pay11 v14 v21 v36 (ix2 p j) = Cert.Spec.logTerm l pos dg j := by
  rw [pay11_eq]
  refine logterm_read l pos dg p _ v21 _ j (pay10_apply v14 v36 pos dg p j (h14 j) (h36 j)) (h21 j) ?_
  refine negsum_read l pos p _ v21 (fun j' => ?_) h21 0
  show IntOp.xori (v36 (ix2 p j')) 1#1 = _
  rw [h36, xori_ofBool_one]

/-- The stored vector at p: the label branch's column there plus one half times the camera branch's row term. -/
theorem pay1_apply (v20 : FVec Ideal S128x8192 .f32) (v70 : FVec Ideal S128x1 .f32) (v72 : IVec S128x8192 1) (v82 : FVec Ideal S128x8192 .f32)
    (h20 : ∀ j, v20 (ix2 p j) = Cert.Spec.sh l j) (h72 : ∀ j, v72 (ix2 p j) = BitVec.ofBool (Cert.Spec.pm pos dg j))
    (h82 : ∀ j, v82 (ix2 p j) = Cert.Spec.logTerm l pos dg j) :
    k0_pay1 v20 v70 v72 v82 (ix1 p) = v70 (ix2 p 0) + Cert.Spec.halfW * Cert.Spec.rowK l pos dg := by
  rw [pay1_eq, ofcol_apply, addf_apply, mulf_apply, broadcast_apply, rowK_read l pos dg p v82 v20 v72 h82 h20 h72]
  rfl

end Pay

/-- The stored block, entry by entry. -/
theorem outPay_apply (i : grid0.Coords) (q : Vec Ideal S128x256 .bf16) (k : Vec Ideal S8192x256 .bf16)
    (lr cr : Vec Ideal S128x1 .i32) (lc cc : Vec Ideal S1x8192 .i32) (p : Fin 128) :
    outPay (F := Ideal) i q k lr cr lc cc (ix1 p)
      = 1 * Cert.Spec.rowK (lRow i q k p) (posIdRow lr lc p) (dgRow i p)
        + Cert.Spec.halfW * Cert.Spec.rowK (lRow i q k p) (posCamRow lr cr lc cc p) (dgRow i p) := by
  unfold outPay
  rw [pay1_apply (lRow i q k p) (posCamRow lr cr lc cc p) (dgRow i p) p _ _ _ _ (fun j => pay3_apply i q k p j)
      (fun j => pay10_apply _ _ _ _ p j (pay2_apply i p j) (pay6_apply lr cr lc cc p j))
      (fun j => pay11_apply (lRow i q k p) (posCamRow lr cr lc cc p) (dgRow i p) p _ _ _ (fun j' => pay2_apply i p j')
        (fun j' => pay4_apply i q k p j') (fun j' => pay6_apply lr cr lc cc p j') j),
    pay9_apply (lRow i q k p) (posIdRow lr lc p) (dgRow i p) p _ _ _ _ (fun j => pay3_apply i q k p j)
      (fun j => pay4_apply i q k p j) (fun j => pay7_apply i lr lc p j) (fun j => pay8_apply lr lc p j)]

end Cert.KernelIdeal.RowValue
end
-- ==== Proof.KiValue.lean ====
/-
  The result array after the pipeline's last point: entry r is the row loss `Spec.lossRowK` of row r.

  At point t the body stores one vector of 128 entries.  Entry p of it is `1 * rowK + halfW * rowK` of three row
  functions of the staged blocks: the logits of query row p against all key rows, the marks "same label" and "same label
  and camera", and the mark of the diagonal entry.  The staged query rows are rows 128 t to 128 t + 127 of the stacked
  features and the staged keys are all of them, so the three functions are the specification's for row 128 t + p, and the
  entry is that row's loss.  Point t writes its vector back to rows 128 t to 128 t + 127 of the result array; row r is
  written by point r / 128, so after the last point every row holds its loss.
-/
import proofs.«410527_j80101140070638_3_alg».proof.Proof.KiBlocks
import proofs.«410527_j80101140070638_3_alg».proof.Proof.KerRow

set_option maxRecDepth 16384

noncomputable section

namespace Cert.KernelIdeal.Hand

open Cert.KernelIdeal Cert.KernelIdeal.Gen Cert.KernelIdeal.RowValue
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

namespace OutRows

/-- The zero offsets of a whole access, on one axis and on two. -/
theorem off1 : (![0] : Fin 1 → Nat) = fun _ => 0 := funext fun a => match a with | ⟨0, _⟩ => rfl
theorem off2 : (![0, 0] : Fin 2 → Nat) = fun _ => 0 := funext fun a => match a with | ⟨0, _⟩ => rfl | ⟨1, _⟩ => rfl

/-! ## The point's rows are the specification's rows -/

/-- The diagonal mark of row p of point t is that of row 128 t + p. -/
theorem dgRow_eq (t : Fin cfg0.N) (p : Fin 128) :
    dgRow (grid0.coords t) p = Cert.Spec.diag (grow t p) := by
  funext j
  unfold dgRow Cert.Spec.diag
  rw [coords_val t]
  exact decide_eq_decide.mpr ⟨fun h => Fin.ext h, fun h => congrArg Fin.val h⟩

/-- Same label: the rows' labels against all labels. -/
theorem posIdRow_eq (c : Dev nD) (t : Fin cfg0.N) (p : Fin 128) :
    posIdRow (iblk m c 2 t) (iblk m c 4 t) p = Cert.Spec.posId (labs m c) (grow t p) := by
  funext j
  unfold posIdRow Cert.Spec.posId
  have h1 := blk_lr m c t p
  have h2 := blk_lc m c t j
  rw [h1, h2]

/-- Same label and same camera. -/
theorem posCamRow_eq (c : Dev nD) (t : Fin cfg0.N) (p : Fin 128) :
    posCamRow (iblk m c 2 t) (iblk m c 3 t) (iblk m c 4 t) (iblk m c 5 t) p
      = Cert.Spec.posCam (labs m c) (cams m c) (grow t p) := by
  funext j
  unfold posCamRow Cert.Spec.posCam
  have h1 := blk_lr m c t p
  have h2 := blk_lc m c t j
  have h3 := blk_cr m c t p
  have h4 := blk_cc m c t j
  rw [h1, h2, h3, h4]

/-- The logits of row p of point t: the inner products of the staged query row with the staged key rows are the
    similarities of row 128 t + p, and the fill sits on the same entry. -/
theorem lRow_eq (c : Dev nD) (t : Fin cfg0.N) (p : Fin 128) :
    lRow (grid0.coords t) (iblk m c 0 t) (iblk m c 1 t) p = Cert.Spec.logitK (feats m c) (grow t p) := by
  funext j
  unfold lRow Cert.Spec.logitK Cert.Spec.sim
  have hd : dgRow (grid0.coords t) p j = decide (grow t p = j) := congrFun (dgRow_eq t p) j
  rw [hd]
  by_cases h : grow t p = j
  · rw [if_pos h, if_pos (decide_eq_true h)]
  · rw [if_neg h, if_neg fun hd' => h (of_decide_eq_true hd')]
    refine congrArg (· * Cert.Spec.invT) ?_
    exact Finset.sum_congr rfl fun d _ => by rw [blk_q m c t p d, blk_k m c t j d]

end OutRows

open OutRows

/-- What the body stores at point t, entry p: the row loss of row 128 t + p. -/
theorem out_entry (c : Dev nD) (t : Fin cfg0.N) (p : Fin 128) :
    ((dat (F := Ideal) m c).after 6 t : Vec Ideal S128 .f32) (ix1 p)
      = Cert.Spec.lossRowK (feats m c) (labs m c) (cams m c) (grow t p) := by
  rw [after_6]
  unfold out6
  rw [View.canon_unit_zero off1]
  simp only [View.ld_unit_zero (S := S128x256) off2, View.ld_unit_zero (S := S8192x256) off2,
    View.ld_unit_zero (S := S128x1) off2, View.ld_unit_zero (S := S1x8192) off2]
  rw [outPay_apply, lRow_eq m c t p, posIdRow_eq m c t p, posCamRow_eq m c t p, dgRow_eq t p]
  rfl

namespace OutRows

/-! ## From the points' blocks to the result array -/

/-- The result array's contents: row r holds its row loss. -/
abbrev lossArr (c : Dev nD) : S8192.Idx → EReal :=
  fun r => Cert.Spec.lossRowK (feats m c) (labs m c) (cams m c) (r 0)

/-- The result window's block index at point t is t: decided over the 64 points. -/
theorem idx_out : ∀ t : Fin cfg0.N, win0_6.index t (0 : Fin 1) = t.val :=
  (by decide +kernel : ∀ t : Fin grid0.N, win0_6.index t (0 : Fin 1) = t.val)

/-- Entry y of what the body stores at point t, for any index y of the block. -/
theorem after_apply (c : Dev nD) (t : Fin cfg0.N) (y : S128.Idx) :
    ((dat (F := Ideal) m c).after 6 t : Vec Ideal S128 .f32) y
      = Cert.Spec.lossRowK (feats m c) (labs m c) (cams m c) (grow t (y 0)) :=
  (congrArg ((dat (F := Ideal) m c).after 6 t : Vec Ideal S128 .f32) (eq_ix1 y)).trans (out_entry m c t (y 0))

/-- Entry y of block t of the result array is row 128 t + y: a block's coordinate is its index times its size plus
    the coordinate inside it. -/
theorem blk_row (t : Fin cfg0.N) (y : S128.Idx) :
    (((cfg0.win 6).blk t).view.emb y) 0 = grow t (y 0) := by
  apply Fin.ext
  show win0_6.index t (0 : Fin 1) * 128 + 1 * (y 0).val = t.val * 128 + (y 0).val
  rw [idx_out t]
  omega

/-- Entry y of what point t stores is the result array's contents at entry y of block t. -/
theorem flushed_apply (c : Dev nD) (t : Fin cfg0.N) (y : S128.Idx) :
    ((dat (F := Ideal) m c).after 6 t : Vec Ideal S128 .f32) y
      = lossArr m c (((cfg0.win 6).blk t).view.emb y) := by
  rw [after_apply m c t y]
  show _ = Cert.Spec.lossRowK (feats m c) (labs m c) (cams m c) ((((cfg0.win 6).blk t).view.emb y) 0)
  rw [blk_row t y]

/-- What point t writes back is block t of the row losses. -/
theorem flushed_eq (c : Dev nD) (t : Fin cfg0.N) :
    (dat (F := Ideal) m c).flushed 6 t = ((cfg0.win 6).blk t).view.read (Elt Ideal) (lossArr m c) :=
  funext fun y => flushed_apply m c t y

/-- A row is in point t's block iff it lies in the block's range. -/
theorem mem_blk_out (t : Fin cfg0.N) (i : S8192.Idx) :
    i ∈ ((cfg0.win 6).blk t).view.set
      ↔ ∀ a : Fin 1, win0_6.index t a * S128.size a ≤ (i a).val ∧ (i a).val < win0_6.index t a * S128.size a + S128.size a := by
  show i ∈ ((View.whole main_v12).slice (win0_6.rect t)).set ↔ _
  rw [View.set_slice_whole, Rect.mem_set_unit]
  exact Iff.rfl

/-- Every row is written back by some point: row r by point r / 128. -/
theorem cover_out (i : S8192.Idx) :
    ∃ t : Fin cfg0.N, (cfg0.win 6).flush t = true ∧ i ∈ ((cfg0.win 6).blk t).view.set := by
  have hi : (i 0).val < 8192 := (i 0).isLt
  have hN : cfg0.N = 64 := N_0
  refine ⟨⟨(i 0).val / 128, by omega⟩, flush0_6 _, ?_⟩
  rw [mem_blk_out]
  intro a
  match a with
  | ⟨0, _⟩ =>
    show win0_6.index ⟨(i 0).val / 128, _⟩ (0 : Fin 1) * 128 ≤ (i 0).val
      ∧ (i 0).val < win0_6.index ⟨(i 0).val / 128, _⟩ (0 : Fin 1) * 128 + 128
    rw [idx_out]
    show (i 0).val / 128 * 128 ≤ (i 0).val ∧ (i 0).val < (i 0).val / 128 * 128 + 128
    omega

/-- The result array after the last point, as one function of the row. -/
theorem arrAt_eq (c : Dev nD) : (dat (F := Ideal) m c).arrAt 6 cfg0.N = lossArr m c :=
  (dat (F := Ideal) m c).arrAt_eq_of_cover 6 (lossArr m c) (fun t _ => flushed_eq m c t) cover_out

end OutRows

/-- The result array after the last point, entry by entry. -/
theorem arrAt_out (c : Dev nD) (r : Fin 8192) :
    ((dat (F := Ideal) m c).arrAt 6 cfg0.N : (⟨S8192, .f32⟩ : BufTy).Contents (Elt Ideal)) (ix1 r)
      = Cert.Spec.lossRowK (feats m c) (labs m c) (cams m c) r := by
  rw [OutRows.arrAt_eq m c]

end Cert.KernelIdeal.Hand

end
-- ==== Proof.KiFinal.lean ====
/-
  The idealized program's result: after the pipeline the program sums the 8192 row losses and divides by the number of
  rows, so the buffer it returns holds `Spec.lossK` of the features, labels and camera ids it was launched with.
-/
import proofs.«410527_j80101140070638_3_alg».proof.Proof.KiEnds
import proofs.«410527_j80101140070638_3_alg».proof.Proof.KiValue
import Idealize.ShloMosaic.PureOps.Ideal.Laws
import Idealize.ShloMosaic.Lib.ValueIdxRank1

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The returned buffer at the last valuation: the zero word plus the sum of the result array's rows, over the
    rows' number; the result array is the row losses (`OutRows.arrAt_eq`), so this is `Spec.lossK`. -/
theorem W3_result (c : Dev nD) : W3 (F := Ideal) m c (Proc.devRef .tc main_v14)
    = fun _ => Cert.Spec.lossK (feats m c) (labs m c) (cams m c) := by
  show StableHlo.after hostOps1 (W2 m c) (Proc.devRef .tc main_v14) = _
  after_results
  have hout : (W2 m c (Proc.devRef .tc main_v12) : S8192.Idx → EReal) = OutRows.lossArr m c :=
    (V2_out m c).trans (OutRows.arrAt_eq m c)
  rw [hout]
  funext i
  show FloatOps.hostDivf (Host.reduceAdd (F := Ideal) (OutRows.lossArr m c) (constant S_ .f32 0x00000000#32) reducesTo_S8192_S_d0 h_S_ i)
      (FloatOps.ofBits .f32 0x46000000#32) = _
  simp only [Host.reduceAdd, Ideal.hostReduceAdd_def]
  rw [Ideal.hostReduceAdd_total reducesTo_S8192_S_d0 (fun b => b.elim0) (OutRows.lossArr m c) _ i]
  rw [show (constant (F := Ideal) S_ .f32 (0#32) (Shape.Idx.first h_S_) : EReal) = 0 from Ideal.ofBits_zero_f32, zero_add,
    (Equiv.sum_comp (idxEquiv1 (n := 8192)).symm (OutRows.lossArr m c)).symm]
  rfl

/-- Every weakly fair execution of the idealized program terminates, faults nowhere, returns `Spec.lossK` of its
    arguments and leaves them as launched. -/
theorem value_run : θ_run defs (onTc (τ := τ) (main (F := Ideal))) ⟨m, fun _ => 0, ρ⟩ (fun r => ∀ c : Dev nD,
      r.2.mem ((c.tc : Thread nD τ).loc main_v14) = (fun _ => Cert.Spec.lossK (feats m c) (labs m c) (cams m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v14 (by decide))).trans (W3_result m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run m ρ)

end Cert.KernelIdeal.Hand

end
-- ==== Proof.RefSpec1.lean ====
/-
  The reference program's stacked features, similarities, logits, row maxima and exponentials, read stage by
  stage as the functions of `Spec` at explicit coordinates.
-/
import proofs.«410527_j80101140070638_3_alg».proof.Proof.Gen.ReferenceIdeal.Read
import proofs.«410527_j80101140070638_3_alg».proof.Proof.Spec
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

namespace Cert.RefSpec

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

variable (x0 : (⟨S4096x2x256, .f32⟩ : BufTy).Contents (Elt Ideal))

/-- Row `i` of the two stacked views: view 0 of sample `i` below 4096, view 1 of sample `i - 4096` from there on. -/
theorem v4_at (i : Fin 8192) (d : Fin 256) :
    val_main_v4 (F := Ideal) x0 (ix2 i d) = Spec.feat (Spec.featOf x0) i d := by
  unfold val_main_v4 Spec.feat Spec.featOf
  by_cases h : i.val < 4096
  · rw [dif_pos h,
      concatenate_pair_apply_left (t := S8192x256) (s₁ := S4096x256) (s₂ := S4096x256) (0 : Fin 2) _ _
        concatenates_S4096x256_S4096x256_S8192x256_d0 (ix2 i d) rfl
        (ix2 (⟨i.val, h⟩ : Fin 4096) d) (fun b => by match b with | ⟨0, _⟩ => rfl | ⟨1, _⟩ => rfl),
      val_main_v1_apply, val_main_v0_apply]
    refine congrArg x0 (funext fun a => Fin.ext ?_)
    have hd := d.isLt
    match a with
    | ⟨0, _⟩ => show (i.val * 256 + d.val) / 256 = i.val; omega
    | ⟨1, _⟩ => rfl
    | ⟨2, _⟩ => show (i.val * 256 + d.val) % 256 = d.val; omega
  · rw [dif_neg h]
    have hi := i.isLt
    rw [concatenate_pair_apply_right (t := S8192x256) (s₁ := S4096x256) (s₂ := S4096x256) (0 : Fin 2) _ _
        concatenates_S4096x256_S4096x256_S8192x256_d0 (ix2 i d) rfl rfl
        (ix2 (⟨i.val - 4096, by omega⟩ : Fin 4096) d)
        (fun b hb => by match b with | ⟨0, _⟩ => exact absurd rfl hb | ⟨1, _⟩ => rfl)
        (by show i.val - 4096 + 4096 = i.val; omega),
      val_main_v3_apply, val_main_v2_apply]
    refine congrArg x0 (funext fun a => Fin.ext ?_)
    have hd := d.isLt
    match a with
    | ⟨0, _⟩ => show ((i.val - 4096) * 256 + d.val) / 256 = i.val - 4096; omega
    | ⟨1, _⟩ => rfl
    | ⟨2, _⟩ => show ((i.val - 4096) * 256 + d.val) % 256 = d.val; omega

/-- The similarity: the contraction of the stacked features with their transpose is the inner product of rows `i` and `j`. -/
theorem v6_at (i j : Fin 8192) :
    val_main_v6 (F := Ideal) x0 (ix2 i j) = Spec.sim (Spec.featOf x0) i j := by
  rw [val_main_v6_apply]
  unfold Spec.sim
  refine Finset.sum_congr rfl fun k _ => ?_
  rw [val_main_v5_apply,
    show lidx_main_v6 (ix2 i j) k = ix2 i k from funext fun a => Fin.ext (by match a with | ⟨0, _⟩ => rfl | ⟨1, _⟩ => rfl),
    show idx_main_v5 (ridx_main_v6 (ix2 i j) k) = ix2 j k from
      funext fun a => Fin.ext (by match a with | ⟨0, _⟩ => rfl | ⟨1, _⟩ => rfl),
    v4_at, v4_at]

/-- The similarity over the temperature's word. -/
theorem v8_at (i j : Fin 8192) :
    val_main_v8 (F := Ideal) x0 (ix2 i j) = Ideal.div (Spec.sim (Spec.featOf x0) i j) Spec.tempW := by
  rw [val_main_v8_apply, v6_at, val_main_v7_apply, val_main_cst_apply]
  rfl

/-- Two row numbers below 8192 are equal as 32-bit words exactly when they are equal. -/
theorem ofNat_eq_iff (i j : Fin 8192) : BitVec.ofNat 32 i.val = BitVec.ofNat 32 j.val ↔ i = j := by
  constructor
  · intro e
    have := congrArg BitVec.toNat e
    simp only [BitVec.toNat_ofNat] at this
    have hi := i.isLt; have hj := j.isLt
    exact Fin.ext (by omega)
  · intro e; rw [e]

/-- The diagonal's mark: the row iota (plus a zero word) equals the column iota exactly on the diagonal. -/
theorem v13_at (i j : Fin 8192) :
    val_main_v13 (F := Ideal) (ix2 i j) = BitVec.ofBool (Spec.diag i j) := by
  rw [val_main_v13_apply, val_main_v12_apply, val_main_v9_apply, val_main_v10_apply, val_main_v11_apply, val_main_c_apply]
  show BitVec.ofBool (BitVec.ofNat 32 i.val + 0#32 == BitVec.ofNat 32 j.val) = BitVec.ofBool (decide (i = j))
  rw [BitVec.add_zero]
  congr 1
  rw [Bool.eq_iff_iff, beq_iff_eq, decide_eq_true_eq]
  exact ofNat_eq_iff i j

/-- A select on a Boolean's bit is the `if` on the Boolean. -/
theorem select_ofBool {α : Type} (b : Bool) (x y : α) : Scalar.select (BitVec.ofBool b) x y = if b then x else y := by
  cases b
  · exact select_zero x y
  · exact select_one x y

/-- The logits: the fill on the diagonal, the scaled similarity off it. -/
theorem v14_at (i j : Fin 8192) :
    val_main_v14 (F := Ideal) x0 (ix2 i j) = Spec.logitR (Spec.featOf x0) i j := by
  rw [val_main_v14_apply, v13_at, v8_at, val_main_call0_v1_apply, val_main_call0_v0_apply, val_main_cst_0_apply,
    select_ofBool]
  unfold Spec.logitR Spec.diag
  by_cases h : i = j
  · rw [if_pos h, if_pos (decide_eq_true h)]; rfl
  · rw [if_neg h, if_neg (by simpa using h)]

/-- The word of minus infinity is the bottom element. -/
theorem ofBits_negInf : Ideal.ofBits .f32 0xFF800000#32 = ⊥ := by simp [Ideal.ofBits, Ideal.ieee]

/-- The [8192, 8192] rectangle reduces along its second axis to the 8192 rows. -/
theorem red1 : S8192x8192.Reduces [1] S8192 := by decide

/-- Row `i` with column `k` inserted is the entry (i, k). -/
theorem lift1 (i k : Fin 8192) : red1.lift (ix1 i) k = ix2 i k :=
  funext fun a => Fin.ext (by match a with | ⟨0, _⟩ => rfl | ⟨1, _⟩ => rfl)

/-- The row maximum: the reduction by maximum from minus infinity along a row is the fold of `max` from the bottom over the row's logits. -/
theorem v15_at (i : Fin 8192) :
    val_main_v15 (F := Ideal) x0 (ix1 i) = Spec.rowMax (Spec.logitR (Spec.featOf x0) i) := by
  unfold val_main_v15 Spec.rowMax
  refine (Host.reduce_eq_fold_single (α := EReal) (FloatOps.maximumf (F := Ideal) (φ := .f32))
    (val_main_v14 (F := Ideal) x0) (val_main_cst_1 (F := Ideal)) reducesTo_S8192x8192_S8192_d1 red1 h_S_ (ix1 i)).trans ?_
  have hf : (val_main_v14 (F := Ideal) x0 ∘ red1.lift (ix1 i)) = Spec.logitR (Spec.featOf x0) i :=
    funext fun (k : Fin 8192) => (congrArg (val_main_v14 (F := Ideal) x0) (lift1 i k)).trans (v14_at x0 i k)
  rw [hf, val_main_cst_1_apply]
  show Finset.fold max (Ideal.ofBits .f32 0xFF800000#32) _ _ = _
  rw [ofBits_negInf]
  rfl

/-- The shifted logit: the logit less its row's maximum. -/
theorem v18_at (i j : Fin 8192) :
    val_main_v18 (F := Ideal) x0 (ix2 i j) = Spec.sh (Spec.logitR (Spec.featOf x0) i) j := by
  rw [val_main_v18_apply, v14_at, val_main_v17_apply, val_main_v16_apply,
    show idx_main_v16 (idx_main_v17 (ix2 i j)) = ix1 i from funext fun a => Fin.ext (by match a with | ⟨0, _⟩ => rfl),
    v15_at]
  rfl

/-- Its exponential. -/
theorem v19_at (i j : Fin 8192) :
    val_main_v19 (F := Ideal) x0 (ix2 i j) = Spec.ex (Spec.logitR (Spec.featOf x0) i) j := by
  rw [val_main_v19_apply, v18_at]
  rfl

/-- The shifted logit again, as the label term subtracts it. -/
theorem v48_at (i j : Fin 8192) :
    val_main_v48 (F := Ideal) x0 (ix2 i j) = Spec.sh (Spec.logitR (Spec.featOf x0) i) j := by
  rw [val_main_v48_apply, v14_at, val_main_v47_apply, val_main_v16_apply,
    show idx_main_v16 (idx_main_v47 (ix2 i j)) = ix1 i from funext fun a => Fin.ext (by match a with | ⟨0, _⟩ => rfl),
    v15_at]
  rfl

/-- The shifted logit again, as the label-and-camera term subtracts it. -/
theorem v69_at (i j : Fin 8192) :
    val_main_v69 (F := Ideal) x0 (ix2 i j) = Spec.sh (Spec.logitR (Spec.featOf x0) i) j := by
  rw [val_main_v69_apply, v14_at, val_main_v68_apply, val_main_v16_apply,
    show idx_main_v16 (idx_main_v68 (ix2 i j)) = ix1 i from funext fun a => Fin.ext (by match a with | ⟨0, _⟩ => rfl),
    v15_at]
  rfl

end Cert.RefSpec

end
-- ==== Proof.RefSpec2.lean ====
/-
  The reference program's marks and counts: the label and camera equalities, their tiling to the stacked rows, the
  positives off the diagonal, and the number of positives in a row, read stage by stage as the functions of `Spec`.
-/
import proofs.«410527_j80101140070638_3_alg».proof.Proof.RefSpec1
import Idealize.ShloMosaic.Lib.StableHlo.Predicate
import Mathlib.Algebra.BigOperators.Ring.Finset

noncomputable section

namespace Cert.RefSpec

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

variable (x1 x2 : (⟨S4096, .i32⟩ : BufTy).Contents (Elt Ideal))

/-- A per-sample word repeated for the second view is the word of the row number modulo 4096. -/
theorem twice_eq (v : Fin 4096 → BitVec 32) (i : Fin 8192) :
    Spec.twice v i = v ⟨i.val % 4096, Nat.mod_lt _ (by decide)⟩ := by
  unfold Spec.twice
  have hi := i.isLt
  by_cases h : i.val < 4096
  · rw [dif_pos h]; exact congrArg v (Fin.ext (by show i.val = i.val % 4096; omega))
  · rw [dif_neg h]; exact congrArg v (Fin.ext (by show i.val - 4096 = i.val % 4096; omega))

/-- The equality comparison of two words is the bit of their equality. -/
theorem cmpi_eq_ofBool {w : Nat} (a b : BitVec w) : IntOp.cmpi .eq a b = BitVec.ofBool (decide (a = b)) := by
  show BitVec.ofBool (a == b) = _
  congr 1

/-- The conjunction of two bits. -/
theorem andi_ofBool (a b : Bool) : IntOp.andi (BitVec.ofBool a) (BitVec.ofBool b) = BitVec.ofBool (a && b) := by
  cases a <;> cases b <;> rfl

/-- The complement of a bit. -/
theorem not_ofBool (a : Bool) : ~~~(BitVec.ofBool a) = BitVec.ofBool (!a) := by
  cases a <;> rfl

/-- The [4096, 4096] label mark: samples `a` and `b` carry the same label. -/
theorem v24_at (a b : Fin 4096) :
    val_main_v24 (F := Ideal) x1 (ix2 a b) = BitVec.ofBool (decide (Spec.intsOf x1 a = Spec.intsOf x1 b)) := by
  rw [val_main_v24_apply, val_main_v22_apply, val_main_v20_apply, val_main_v23_apply, val_main_v21_apply, cmpi_eq_ofBool,
    show idx_main_v20 (idx_main_v22 (ix2 a b)) = ix1 a from funext fun c => Fin.ext (by match c with | ⟨0, _⟩ => rfl),
    show idx_main_v21 (idx_main_v23 (ix2 a b)) = ix1 b from funext fun c => Fin.ext (by match c with | ⟨0, _⟩ => rfl)]
  rfl

/-- The [4096, 4096] camera mark: samples `a` and `b` carry the same camera id. -/
theorem v29_at (a b : Fin 4096) :
    val_main_v29 (F := Ideal) x2 (ix2 a b) = BitVec.ofBool (decide (Spec.intsOf x2 a = Spec.intsOf x2 b)) := by
  rw [val_main_v29_apply, val_main_v27_apply, val_main_v25_apply, val_main_v28_apply, val_main_v26_apply, cmpi_eq_ofBool,
    show idx_main_v25 (idx_main_v27 (ix2 a b)) = ix1 a from funext fun c => Fin.ext (by match c with | ⟨0, _⟩ => rfl),
    show idx_main_v26 (idx_main_v28 (ix2 a b)) = ix1 b from funext fun c => Fin.ext (by match c with | ⟨0, _⟩ => rfl)]
  rfl

/-- The tiling of a [4096, 4096] array twice along each axis reads, at (i, j), the array at (i mod 4096, j mod 4096):
    the index equation of reshape, broadcast, reshape (the label mark's three stages). -/
theorem tile_idx_v32 (i j : Fin 8192) :
    idx_main_v30 (idx_main_v31 (idx_main_v32 (ix2 i j)))
      = ix2 (⟨i.val % 4096, Nat.mod_lt _ (by decide)⟩ : Fin 4096) (⟨j.val % 4096, Nat.mod_lt _ (by decide)⟩ : Fin 4096) := by
  have hi := i.isLt; have hj := j.isLt
  refine funext fun c => Fin.ext ?_
  match c with
  | ⟨0, _⟩ =>
    show (((0 * 4096 + (i.val * 8192 + j.val) / 8192 % 4096) * 1 + 0) * 4096 + (i.val * 8192 + j.val) % 4096) / 4096 = i.val % 4096
    omega
  | ⟨1, _⟩ =>
    show (((0 * 4096 + (i.val * 8192 + j.val) / 8192 % 4096) * 1 + 0) * 4096 + (i.val * 8192 + j.val) % 4096) % 4096 = j.val % 4096
    omega

/-- The same index equation for the label-and-camera mark's three stages. -/
theorem tile_idx_v36 (i j : Fin 8192) :
    idx_main_v34 (idx_main_v35 (idx_main_v36 (ix2 i j)))
      = ix2 (⟨i.val % 4096, Nat.mod_lt _ (by decide)⟩ : Fin 4096) (⟨j.val % 4096, Nat.mod_lt _ (by decide)⟩ : Fin 4096) := by
  have hi := i.isLt; have hj := j.isLt
  refine funext fun c => Fin.ext ?_
  match c with
  | ⟨0, _⟩ =>
    show (((0 * 4096 + (i.val * 8192 + j.val) / 8192 % 4096) * 1 + 0) * 4096 + (i.val * 8192 + j.val) % 4096) / 4096 = i.val % 4096
    omega
  | ⟨1, _⟩ =>
    show (((0 * 4096 + (i.val * 8192 + j.val) / 8192 % 4096) * 1 + 0) * 4096 + (i.val * 8192 + j.val) % 4096) % 4096 = j.val % 4096
    omega

/-- The tiled label mark: rows `i` and `j` carry the same label. -/
theorem v32_at (i j : Fin 8192) :
    val_main_v32 (F := Ideal) x1 (ix2 i j) = BitVec.ofBool (Spec.posId (Spec.intsOf x1) i j) := by
  rw [val_main_v32_apply, val_main_v31_apply, val_main_v30_apply, tile_idx_v32, v24_at]
  unfold Spec.posId
  rw [twice_eq, twice_eq]

/-- The tiled label-and-camera mark: rows `i` and `j` carry the same label and the same camera id. -/
theorem v36_at (i j : Fin 8192) :
    val_main_v36 (F := Ideal) x1 x2 (ix2 i j) = BitVec.ofBool (Spec.posCam (Spec.intsOf x1) (Spec.intsOf x2) i j) := by
  rw [val_main_v36_apply, val_main_v35_apply, val_main_v34_apply, tile_idx_v36, val_main_v33_apply, v24_at, v29_at,
    andi_ofBool]
  unfold Spec.posCam
  rw [twice_eq, twice_eq, twice_eq, twice_eq]

/-- The label term's positives off the diagonal. -/
theorem v38_at (i j : Fin 8192) :
    val_main_v38 (F := Ideal) x1 (ix2 i j) = BitVec.ofBool (Spec.pm (Spec.posId (Spec.intsOf x1) i) (Spec.diag i) j) := by
  rw [val_main_v38_apply, v32_at, val_main_v37_apply, v13_at, not_ofBool, andi_ofBool]
  rfl

/-- The label term's non-positives. -/
theorem v39_at (i j : Fin 8192) :
    val_main_v39 (F := Ideal) x1 (ix2 i j) = BitVec.ofBool (!Spec.posId (Spec.intsOf x1) i j) := by
  rw [val_main_v39_apply, v32_at, not_ofBool]

/-- The label-and-camera term's positives off the diagonal. -/
theorem v59_at (i j : Fin 8192) :
    val_main_v59 (F := Ideal) x1 x2 (ix2 i j)
      = BitVec.ofBool (Spec.pm (Spec.posCam (Spec.intsOf x1) (Spec.intsOf x2) i) (Spec.diag i) j) := by
  rw [val_main_v59_apply, v36_at, val_main_v58_apply, v13_at, not_ofBool, andi_ofBool]
  rfl

/-- The label-and-camera term's non-positives. -/
theorem v60_at (i j : Fin 8192) :
    val_main_v60 (F := Ideal) x1 x2 (ix2 i j) = BitVec.ofBool (!Spec.posCam (Spec.intsOf x1) (Spec.intsOf x2) i j) := by
  rw [val_main_v60_apply, v36_at, not_ofBool]

/-- The number of set bits of a row, as the reference forms it: the 32-bit sum of the row's widened bits does not wrap
    (at most 8192 ones), so read signed and converted it is the number of ones, the sum of a one per set bit. -/
theorem count_at (mask : IVec S8192x8192 1) (p : Fin 8192 → Bool) (i : Fin 8192)
    (hm : ∀ j, mask (ix2 i j) = BitVec.ofBool (p j)) :
    FloatOps.sitofp (F := Ideal) .f32
        (Host.reduce IntOp.addi (extui 32 mask natLt_1_32) (constantI S_ 32 0#32) reducesTo_S8192x8192_S8192_d1 h_S_ (ix1 i))
      = ∑ j, if p j then (1 : EReal) else 0 := by
  have hc := Predicate.toNat_reduce_count_cols (n := 8192) (m := 8192) (by decide) mask natLt_1_32
    reducesTo_S8192x8192_S8192_d1 h_S_ (ix1 i)
  have hf : (Finset.univ.filter fun q : Fin 8192 => mask (Predicate.ij ((ix1 i) 0) q) = 1#1)
      = Finset.univ.filter fun q : Fin 8192 => p q = true :=
    Finset.filter_congr fun q _ => by
      have e : mask (Predicate.ij ((ix1 i) 0) q) = BitVec.ofBool (p q) :=
        (congrArg mask (funext fun a => by match a with | ⟨0, _⟩ => rfl | ⟨1, _⟩ => rfl)).trans (hm q)
      exact ⟨fun h => (Predicate.ofBool_eq_one_iff _).1 (e.symm.trans h),
        fun h => e.trans ((Predicate.ofBool_eq_one_iff _).2 h)⟩
  replace hc := hc.trans (congrArg Finset.card hf)
  have hle : (Finset.univ.filter fun q : Fin 8192 => p q = true).card ≤ 8192 :=
    (Finset.card_filter_le _ _).trans (by rw [Finset.card_univ, Fintype.card_fin])
  generalize Host.reduce IntOp.addi (extui 32 mask natLt_1_32) (constantI S_ 32 0#32)
    reducesTo_S8192x8192_S8192_d1 h_S_ (ix1 i) = c at hc ⊢
  have hi : c.toInt = (c.toNat : ℤ) := Predicate.toInt_eq_toNat_of_lt (by omega)
  show (((c.toInt : ℝ)) : EReal) = _
  rw [hi, Int.cast_natCast, EReal.coe_natCast, hc, Finset.sum_boole]

/-- The label term's count of positives. -/
theorem v52_at (i : Fin 8192) :
    val_main_v52 (F := Ideal) x1 (ix1 i) = Spec.cnt (Spec.posId (Spec.intsOf x1) i) (Spec.diag i) := by
  rw [val_main_v52_apply]
  exact count_at (val_main_v38 (F := Ideal) x1) _ i (fun j => v38_at x1 i j)

/-- The label-and-camera term's count of positives. -/
theorem v73_at (i : Fin 8192) :
    val_main_v73 (F := Ideal) x1 x2 (ix1 i)
      = Spec.cnt (Spec.posCam (Spec.intsOf x1) (Spec.intsOf x2) i) (Spec.diag i) := by
  rw [val_main_v73_apply]
  exact count_at (val_main_v59 (F := Ideal) x1 x2) _ i (fun j => v59_at x1 x2 i j)

end Cert.RefSpec

end
-- ==== Proof.RefSpec3.lean ====
/-
  The reference program's rows: the negatives' sum, the logarithm terms, the row terms of the label and of the
  label-and-camera marks, the row losses and their mean, read stage by stage as the functions of `Spec`.
-/
import proofs.«410527_j80101140070638_3_alg».proof.Proof.RefSpec2
import Idealize.ShloMosaic.Lib.ValueIdxRank1

noncomputable section

namespace Cert.RefSpec

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

variable (x0 : (⟨S4096x2x256, .f32⟩ : BufTy).Contents (Elt Ideal))
variable (x1 x2 : (⟨S4096, .i32⟩ : BufTy).Contents (Elt Ideal))

/-- An `if` on a complemented Boolean swaps its branches. -/
theorem ite_not_bool {α : Type} (b : Bool) (x y : α) : (if (!b) = true then x else y) = if b = true then y else x := by
  cases b <;> rfl

/-- The zero word is zero. -/
theorem zero_f32 : FloatOps.ofBits (F := Ideal) .f32 0x00000000#32 = 0 := Ideal.ofBits_zero_f32

/-- The one word is one. -/
theorem one_f32 : FloatOps.ofBits (F := Ideal) .f32 0x3F800000#32 = 1 := Ideal.ofBits_one_f32

/-! ## The label term -/

/-- The exponential where the row's label differs, zero where it agrees. -/
theorem v40_at (i j : Fin 8192) :
    val_main_v40 (F := Ideal) x0 x1 (ix2 i j)
      = if Spec.posId (Spec.intsOf x1) i j then 0 else Spec.ex (Spec.logitR (Spec.featOf x0) i) j := by
  rw [val_main_v40_apply, v39_at, v19_at, val_main_call1_v1_apply, val_main_call1_v0_apply, val_main_cst_2_apply,
    select_ofBool, ite_not_bool, zero_f32]

/-- The negatives' sum of a row. -/
theorem v41_at (i : Fin 8192) :
    val_main_v41 (F := Ideal) x0 x1 (ix1 i)
      = Spec.negSum (Spec.logitR (Spec.featOf x0) i) (Spec.posId (Spec.intsOf x1) i) := by
  rw [val_main_v41_apply, val_main_cst_3_apply, zero_f32, zero_add]
  unfold Spec.negSum
  refine Finset.sum_congr rfl fun k _ => ?_
  rw [show idx_main_v41 (ix1 i) k = ix2 i k from
      funext fun a => Fin.ext (by match a with | ⟨0, _⟩ => rfl | ⟨1, _⟩ => rfl), v40_at]

/-- A positive's exponential plus the negatives' sum. -/
theorem v44_at (i j : Fin 8192) :
    val_main_v44 (F := Ideal) x0 x1 (ix2 i j)
      = Spec.ex (Spec.logitR (Spec.featOf x0) i) j
        + Spec.negSum (Spec.logitR (Spec.featOf x0) i) (Spec.posId (Spec.intsOf x1) i) := by
  rw [val_main_v44_apply, v19_at, val_main_v43_apply, val_main_v42_apply,
    show idx_main_v42 (idx_main_v43 (ix2 i j)) = ix1 i from funext fun a => Fin.ext (by match a with | ⟨0, _⟩ => rfl),
    v41_at]
  rfl

/-- The logarithm term. -/
theorem v46_at (i j : Fin 8192) :
    val_main_v46 (F := Ideal) x0 x1 (ix2 i j)
      = Spec.logTerm (Spec.logitR (Spec.featOf x0) i) (Spec.posId (Spec.intsOf x1) i) (Spec.diag i) j := by
  rw [val_main_v46_apply, val_main_v45_apply, v38_at, v44_at, val_main_call2_v1_apply, val_main_call2_v0_apply,
    val_main_cst_4_apply, select_ofBool, one_f32]
  rfl

/-- The logarithm term less the shifted logit. -/
theorem v49_at (i j : Fin 8192) :
    val_main_v49 (F := Ideal) x0 x1 (ix2 i j)
      = Spec.logTerm (Spec.logitR (Spec.featOf x0) i) (Spec.posId (Spec.intsOf x1) i) (Spec.diag i) j
        - Spec.sh (Spec.logitR (Spec.featOf x0) i) j := by
  rw [val_main_v49_apply, v46_at, v48_at]
  rfl

/-- The difference on the positives, zero elsewhere. -/
theorem v53_at (i j : Fin 8192) :
    val_main_v53 (F := Ideal) x0 x1 (ix2 i j)
      = if Spec.pm (Spec.posId (Spec.intsOf x1) i) (Spec.diag i) j then
          Spec.logTerm (Spec.logitR (Spec.featOf x0) i) (Spec.posId (Spec.intsOf x1) i) (Spec.diag i) j
            - Spec.sh (Spec.logitR (Spec.featOf x0) i) j
        else 0 := by
  rw [val_main_v53_apply, v38_at, v49_at, val_main_call3_v1_apply, val_main_call3_v0_apply, val_main_cst_6_apply,
    select_ofBool, zero_f32]

/-- The row term of the label mark: the sum of the differences over the count. -/
theorem v55_at (i : Fin 8192) :
    val_main_v55 (F := Ideal) x0 x1 (ix1 i)
      = Spec.rowR (Spec.logitR (Spec.featOf x0) i) (Spec.posId (Spec.intsOf x1) i) (Spec.diag i) := by
  rw [val_main_v55_apply, v52_at, val_main_v54_apply, val_main_cst_7_apply, zero_f32, zero_add]
  unfold Spec.rowR
  show Ideal.div _ _ = Ideal.div _ _
  congr 1
  refine Finset.sum_congr rfl fun k _ => ?_
  rw [show idx_main_v54 (ix1 i) k = ix2 i k from
      funext fun a => Fin.ext (by match a with | ⟨0, _⟩ => rfl | ⟨1, _⟩ => rfl), v53_at]

/-- Its weight, the one word. -/
theorem v57_at (i : Fin 8192) :
    val_main_v57 (F := Ideal) x0 x1 (ix1 i)
      = 1 * Spec.rowR (Spec.logitR (Spec.featOf x0) i) (Spec.posId (Spec.intsOf x1) i) (Spec.diag i) := by
  rw [val_main_v57_apply, val_main_v56_apply, val_main_cst_8_apply, one_f32, v55_at]
  rfl

/-! ## The label-and-camera term -/

/-- The exponential where label or camera differs, zero where both agree. -/
theorem v61_at (i j : Fin 8192) :
    val_main_v61 (F := Ideal) x0 x1 x2 (ix2 i j)
      = if Spec.posCam (Spec.intsOf x1) (Spec.intsOf x2) i j then 0 else Spec.ex (Spec.logitR (Spec.featOf x0) i) j := by
  rw [val_main_v61_apply, v60_at, v19_at, val_main_call4_v1_apply, val_main_call4_v0_apply, val_main_cst_9_apply,
    select_ofBool, ite_not_bool, zero_f32]

/-- The negatives' sum of a row. -/
theorem v62_at (i : Fin 8192) :
    val_main_v62 (F := Ideal) x0 x1 x2 (ix1 i)
      = Spec.negSum (Spec.logitR (Spec.featOf x0) i) (Spec.posCam (Spec.intsOf x1) (Spec.intsOf x2) i) := by
  rw [val_main_v62_apply, val_main_cst_10_apply, zero_f32, zero_add]
  unfold Spec.negSum
  refine Finset.sum_congr rfl fun k _ => ?_
  rw [show idx_main_v62 (ix1 i) k = ix2 i k from
      funext fun a => Fin.ext (by match a with | ⟨0, _⟩ => rfl | ⟨1, _⟩ => rfl), v61_at]

/-- A positive's exponential plus the negatives' sum. -/
theorem v65_at (i j : Fin 8192) :
    val_main_v65 (F := Ideal) x0 x1 x2 (ix2 i j)
      = Spec.ex (Spec.logitR (Spec.featOf x0) i) j
        + Spec.negSum (Spec.logitR (Spec.featOf x0) i) (Spec.posCam (Spec.intsOf x1) (Spec.intsOf x2) i) := by
  rw [val_main_v65_apply, v19_at, val_main_v64_apply, val_main_v63_apply,
    show idx_main_v63 (idx_main_v64 (ix2 i j)) = ix1 i from funext fun a => Fin.ext (by match a with | ⟨0, _⟩ => rfl),
    v62_at]
  rfl

/-- The logarithm term. -/
theorem v67_at (i j : Fin 8192) :
    val_main_v67 (F := Ideal) x0 x1 x2 (ix2 i j)
      = Spec.logTerm (Spec.logitR (Spec.featOf x0) i) (Spec.posCam (Spec.intsOf x1) (Spec.intsOf x2) i) (Spec.diag i) j := by
  rw [val_main_v67_apply, val_main_v66_apply, v59_at, v65_at, val_main_call5_v1_apply, val_main_call5_v0_apply,
    val_main_cst_11_apply, select_ofBool, one_f32]
  rfl

/-- The logarithm term less the shifted logit. -/
theorem v70_at (i j : Fin 8192) :
    val_main_v70 (F := Ideal) x0 x1 x2 (ix2 i j)
      = Spec.logTerm (Spec.logitR (Spec.featOf x0) i) (Spec.posCam (Spec.intsOf x1) (Spec.intsOf x2) i) (Spec.diag i) j
        - Spec.sh (Spec.logitR (Spec.featOf x0) i) j := by
  rw [val_main_v70_apply, v67_at, v69_at]
  rfl

/-- The difference on the positives, zero elsewhere. -/
theorem v74_at (i j : Fin 8192) :
    val_main_v74 (F := Ideal) x0 x1 x2 (ix2 i j)
      = if Spec.pm (Spec.posCam (Spec.intsOf x1) (Spec.intsOf x2) i) (Spec.diag i) j then
          Spec.logTerm (Spec.logitR (Spec.featOf x0) i) (Spec.posCam (Spec.intsOf x1) (Spec.intsOf x2) i) (Spec.diag i) j
            - Spec.sh (Spec.logitR (Spec.featOf x0) i) j
        else 0 := by
  rw [val_main_v74_apply, v59_at, v70_at, val_main_call6_v1_apply, val_main_call6_v0_apply, val_main_cst_13_apply,
    select_ofBool, zero_f32]

/-- The row term of the label-and-camera mark: the sum of the differences over the count. -/
theorem v76_at (i : Fin 8192) :
    val_main_v76 (F := Ideal) x0 x1 x2 (ix1 i)
      = Spec.rowR (Spec.logitR (Spec.featOf x0) i) (Spec.posCam (Spec.intsOf x1) (Spec.intsOf x2) i) (Spec.diag i) := by
  rw [val_main_v76_apply, v73_at, val_main_v75_apply, val_main_cst_14_apply, zero_f32, zero_add]
  unfold Spec.rowR
  show Ideal.div _ _ = Ideal.div _ _
  congr 1
  refine Finset.sum_congr rfl fun k _ => ?_
  rw [show idx_main_v75 (ix1 i) k = ix2 i k from
      funext fun a => Fin.ext (by match a with | ⟨0, _⟩ => rfl | ⟨1, _⟩ => rfl), v74_at]

/-- Its weight, the half word. -/
theorem v78_at (i : Fin 8192) :
    val_main_v78 (F := Ideal) x0 x1 x2 (ix1 i)
      = Spec.halfW * Spec.rowR (Spec.logitR (Spec.featOf x0) i) (Spec.posCam (Spec.intsOf x1) (Spec.intsOf x2) i) (Spec.diag i) := by
  rw [val_main_v78_apply, val_main_v77_apply, val_main_cst_15_apply, v76_at]
  rfl

/-! ## The loss -/

/-- The row loss: the label term plus half the label-and-camera term. -/
theorem v79_at (i : Fin 8192) :
    val_main_v79 (F := Ideal) x0 x1 x2 (ix1 i)
      = Spec.lossRowR (Spec.featOf x0) (Spec.intsOf x1) (Spec.intsOf x2) i := by
  rw [val_main_v79_apply, v57_at, v78_at]
  rfl

/-- The sum of the row losses over the number of rows. -/
theorem v81_at (i0 : S_.Idx) :
    val_main_v81 (F := Ideal) x0 x1 x2 i0
      = Spec.lossR (Spec.featOf x0) (Spec.intsOf x1) (Spec.intsOf x2) := by
  rw [val_main_v81_apply, val_main_v80_apply, val_main_cst_16_apply, zero_f32, zero_add, val_main_cst_17_apply]
  have hs : ∑ j : S8192.Idx, val_main_v79 (F := Ideal) x0 x1 x2 j
      = ∑ i : Fin 8192, Spec.lossRowR (Spec.featOf x0) (Spec.intsOf x1) (Spec.intsOf x2) i :=
    (Equiv.sum_comp (idxEquiv1 (n := 8192)).symm (val_main_v79 (F := Ideal) x0 x1 x2)).symm.trans
      (Finset.sum_congr rfl fun i _ => v79_at x0 x1 x2 i)
  rw [hs]
  rfl

end Cert.RefSpec

end
-- ==== Proof.RefSpec.lean ====
/-
  The reference program computes the loss `Spec.lossR` of its three argument arrays.
-/
import proofs.«410527_j80101140070638_3_alg».proof.Proof.Gen.ReferenceIdeal.Run
import proofs.«410527_j80101140070638_3_alg».proof.Proof.Gen.ReferenceIdeal.Read
import proofs.«410527_j80101140070638_3_alg».proof.Proof.Spec
import proofs.«410527_j80101140070638_3_alg».proof.Proof.RefSpec3
import Idealize.ShloMosaic.Lib.ValueIdx
import Idealize.ShloMosaic.Lib.Pipeline.Value
import Idealize.ShloMosaic.PureOps.Ideal.Laws

noncomputable section

namespace Cert.RefSpec

open Cert.ReferenceIdeal Cert.ReferenceIdeal.Gen Idealize.ShloMosaic Idealize.ShloMosaic.TcCoe Idealize.SL.Sem Idealize.ShloMosaic.StableHlo

/-- The reference's result, read at the extended reals, is the loss as the reference forms it (`Spec.lossR`) of the
    features, labels and camera ids. -/
theorem ref_value (x0 : (⟨S4096x2x256, .f32⟩ : BufTy).Contents (Elt Ideal))
    (x1 x2 : (⟨S4096, .i32⟩ : BufTy).Contents (Elt Ideal)) :
    Cert.ReferenceIdeal.Read.val_main_v81 (F := Ideal) x0 x1 x2
      = fun _ => Cert.Spec.lossR (Cert.Spec.featOf x0) (Cert.Spec.intsOf x1) (Cert.Spec.intsOf x2) :=
  funext fun i0 => v81_at x0 x1 x2 i0

end Cert.RefSpec

end
-- ==== Proof.RowBridge.lean ====
/-
  The two row formulas agree, and so do the two losses.

  Everything rests on one observation: on a row of real logits every intermediate quantity is a real number.  The row
  maximum is one of the logits, so the shifted logits are real, their exponentials are positive reals, the sum of the
  exponentials over the non-positives is a nonnegative real, and the logarithm is taken of a positive real.  On reals the
  sum of differences is the difference of sums (an identity that fails on the extended reals once an infinity occurs),
  and a row with at least one positive off the diagonal has a count of at least one, so the kernel's guard is taken and
  its max(count, 1) is the count.
-/
import proofs.«410527_j80101140070638_3_alg».proof.Proof.Spec

noncomputable section

namespace Cert.Spec

open Idealize.ShloMosaic

/-! ## The constants -/

/-- The temperature's word is the rational 13421773 / 134217728. -/
theorem tempW_eq : tempW = ((13421773 / 134217728 : ℝ) : EReal) := by
  simp [tempW, Ideal.ofBits, Ideal.ieee, -EReal.coe_mul]; norm_num

/-- The fill's word is the real -(13234890 * 2^76): sign 1, exponent field 226, fraction 4846282. -/
theorem fill_eq : fill = ((-(13234890 * 2 ^ 76) : ℝ) : EReal) := by
  simp [fill, Ideal.ofBits, Ideal.ieee, -EReal.coe_mul]

/-- Dividing by the temperature's word is multiplying by the inverse temperature, on every extended real. -/
theorem logitR_eq_logitK (X : Fin 4096 → Fin 2 → Fin 256 → EReal) : logitR X = logitK X := by
  funext i j
  unfold logitR logitK
  split
  · rfl
  · rw [tempW_eq, Ideal.div_coe (by norm_num), invT]
    congr 2
    norm_num

/-! ## Sums of reals -/

/-- A finite sum of reals, read in the extended reals, is the real sum. -/
theorem coe_sum (s : Finset (Fin 8192)) (f : Fin 8192 → ℝ) :
    ∑ j ∈ s, (f j : EReal) = ((∑ j ∈ s, f j : ℝ) : EReal) := by
  induction s using Finset.induction_on with
  | empty => simp
  | insert a s ha ih => rw [Finset.sum_insert ha, Finset.sum_insert ha, ih, EReal.coe_add]

/-- Over a marked set of reals, the difference of the two sums is the sum of the differences. -/
theorem sum_sub_sum (p : Fin 8192 → Bool) (a b : Fin 8192 → ℝ) :
    (∑ j, if p j then (a j : EReal) else 0) - (∑ j, if p j then (b j : EReal) else 0)
      = ∑ j, if p j then (a j : EReal) - (b j : EReal) else 0 := by
  have h1 : ∀ f : Fin 8192 → ℝ,
      (∑ j, if p j then (f j : EReal) else 0) = ((∑ j, if p j then f j else 0 : ℝ) : EReal) := by
    intro f
    rw [← coe_sum]
    exact Finset.sum_congr rfl (fun j _ => by split <;> simp)
  simp only [← EReal.coe_sub]
  rw [h1 a, h1 b, h1 (fun j => a j - b j), ← EReal.coe_sub, ← Finset.sum_sub_distrib]
  congr 1
  exact Finset.sum_congr rfl (fun j _ => by split <;> simp)

/-! ## One row of real logits -/

/-- The maximum of a row of reals is a real: it is below the top because every entry is, and above the bottom
    because the first entry is. -/
theorem rowMax_real (l : Fin 8192 → EReal) (hl : ∀ j, ∃ r : ℝ, l j = (r : EReal)) :
    ∃ m : ℝ, rowMax l = (m : EReal) := by
  have htop : rowMax l ≠ ⊤ := by
    apply ne_of_lt
    rw [rowMax, Finset.fold_max_lt]
    refine ⟨bot_lt_top, fun x _ => ?_⟩
    obtain ⟨r, hr⟩ := hl x
    rw [hr]; exact EReal.coe_lt_top r
  have hbot : rowMax l ≠ ⊥ := by
    apply ne_of_gt
    rw [rowMax, Finset.lt_fold_max]
    right
    obtain ⟨r, hr⟩ := hl 0
    exact ⟨0, Finset.mem_univ _, by rw [hr]; exact EReal.bot_lt_coe r⟩
  exact ⟨(rowMax l).toReal, (EReal.coe_toReal htop hbot).symm⟩

/-- A real logit less the real maximum is a real. -/
theorem sh_real (l : Fin 8192 → EReal) (hl : ∀ j, ∃ r : ℝ, l j = (r : EReal)) (j : Fin 8192) :
    ∃ r : ℝ, sh l j = (r : EReal) := by
  obtain ⟨m, hm⟩ := rowMax_real l hl
  obtain ⟨r, hr⟩ := hl j
  exact ⟨r - m, by rw [sh, hr, hm, EReal.coe_sub]⟩

/-- The exponential of a real is a positive real. -/
theorem ex_pos_real (l : Fin 8192 → EReal) (hl : ∀ j, ∃ r : ℝ, l j = (r : EReal)) (j : Fin 8192) :
    ∃ r : ℝ, 0 < r ∧ ex l j = (r : EReal) := by
  obtain ⟨s, hs⟩ := sh_real l hl j
  exact ⟨Real.exp s, Real.exp_pos s, by rw [ex, hs, Ideal.exp_coe]⟩

/-- The sum of the exponentials over the non-positives is a nonnegative real. -/
theorem negSum_real (l : Fin 8192 → EReal) (pos : Fin 8192 → Bool) (hl : ∀ j, ∃ r : ℝ, l j = (r : EReal)) :
    ∃ r : ℝ, 0 ≤ r ∧ negSum l pos = (r : EReal) := by
  choose e he0 he using ex_pos_real l hl
  refine ⟨∑ j, if pos j then 0 else e j,
    Finset.sum_nonneg (fun j _ => by split; exact le_rfl; exact (he0 j).le), ?_⟩
  rw [negSum, ← coe_sum]
  refine Finset.sum_congr rfl (fun j _ => ?_)
  by_cases h : pos j = true <;> simp [h, he j]

/-- The logarithm is taken of a positive real (a positive exponential plus a nonnegative sum, or one), so it is a
    real. -/
theorem logTerm_real (l : Fin 8192 → EReal) (pos dg : Fin 8192 → Bool) (hl : ∀ j, ∃ r : ℝ, l j = (r : EReal))
    (j : Fin 8192) : ∃ r : ℝ, logTerm l pos dg j = (r : EReal) := by
  obtain ⟨e, he0, he⟩ := ex_pos_real l hl j
  obtain ⟨n, hn0, hn⟩ := negSum_real l pos hl
  rw [logTerm]
  split
  · refine ⟨Real.log (e + n), ?_⟩
    rw [he, hn, ← EReal.coe_add, Ideal.log_coe, if_neg (by linarith)]
  · exact ⟨0, by rw [← EReal.coe_one, Ideal.log_coe]; simp⟩

/-- A row with a positive off the diagonal counts at least one: the count is a sum of zeros and ones, and that
    entry's term is a one. -/
theorem one_le_cnt (pos dg : Fin 8192 → Bool) (hp : ∃ j, pm pos dg j = true) : 1 ≤ cnt pos dg := by
  obtain ⟨j0, hj0⟩ := hp
  have := Finset.single_le_sum (f := fun j => if pm pos dg j then (1 : EReal) else 0) (s := Finset.univ)
    (fun j _ => by split <;> norm_num) (Finset.mem_univ j0)
  simpa [cnt, hj0] using this

/-- On a row of real logits with at least one positive off the diagonal, the kernel's guarded difference of sums over
    the count is the reference's sum of differences over the count. -/
theorem rowK_eq_rowR (l : Fin 8192 → EReal) (pos dg : Fin 8192 → Bool) (hl : ∀ j, ∃ r : ℝ, l j = (r : EReal))
    (hp : ∃ j, pm pos dg j = true) : rowK l pos dg = rowR l pos dg := by
  have hc : 1 ≤ cnt pos dg := one_le_cnt pos dg hp
  have hc0 : 0 < cnt pos dg := lt_of_lt_of_le zero_lt_one hc
  choose a ha using logTerm_real l pos dg hl
  choose b hb using sh_real l hl
  rw [rowK, rowR, if_pos hc0, max_eq_left hc]
  congr 1
  simp only [ha, hb]
  exact sum_sub_sum _ a b

/-! ## Every row has a positive: its other view -/

/-- Every row has a positive off the diagonal under the label mark: its other view. -/
theorem exists_pm_posId (lab : Fin 4096 → BitVec 32) (i : Fin 8192) : ∃ j, pm (posId lab i) (diag i) j = true := by
  by_cases h : i.val < 4096
  · refine ⟨⟨i.val + 4096, by omega⟩, ?_⟩
    have hne : i ≠ (⟨i.val + 4096, by omega⟩ : Fin 8192) := by
      intro e; have := congrArg Fin.val e; simp at this
    simp [pm, posId, diag, twice, h, hne]
  · refine ⟨⟨i.val - 4096, by omega⟩, ?_⟩
    have hne : i ≠ (⟨i.val - 4096, by omega⟩ : Fin 8192) := by
      intro e; have := congrArg Fin.val e; simp at this; omega
    have h2 : i.val - 4096 < 4096 := by omega
    simp [pm, posId, diag, twice, h, hne, h2]

/-- And under the label-and-camera mark. -/
theorem exists_pm_posCam (lab cam : Fin 4096 → BitVec 32) (i : Fin 8192) :
    ∃ j, pm (posCam lab cam i) (diag i) j = true := by
  by_cases h : i.val < 4096
  · refine ⟨⟨i.val + 4096, by omega⟩, ?_⟩
    have hne : i ≠ (⟨i.val + 4096, by omega⟩ : Fin 8192) := by
      intro e; have := congrArg Fin.val e; simp at this
    simp [pm, posCam, diag, twice, h, hne]
  · refine ⟨⟨i.val - 4096, by omega⟩, ?_⟩
    have hne : i ≠ (⟨i.val - 4096, by omega⟩ : Fin 8192) := by
      intro e; have := congrArg Fin.val e; simp at this; omega
    have h2 : i.val - 4096 < 4096 := by omega
    simp [pm, posCam, diag, twice, h, hne, h2]

/-! ## Real features give real logits -/

/-- A stacked feature is one of the given features, hence real. -/
theorem feat_real (X : Fin 4096 → Fin 2 → Fin 256 → EReal) (hX : ∀ a b d, ∃ r : ℝ, X a b d = (r : EReal))
    (i : Fin 8192) (d : Fin 256) : ∃ r : ℝ, feat X i d = (r : EReal) := by
  unfold feat; split <;> exact hX _ _ _

/-- An inner product of real vectors is real: the reals are closed under products and finite sums. -/
theorem sim_real (X : Fin 4096 → Fin 2 → Fin 256 → EReal) (hX : ∀ a b d, ∃ r : ℝ, X a b d = (r : EReal))
    (i j : Fin 8192) : ∃ r : ℝ, sim X i j = (r : EReal) := by
  unfold sim
  apply Finset.sum_induction _ (fun x : EReal => ∃ r : ℝ, x = (r : EReal))
  · rintro _ _ ⟨a, rfl⟩ ⟨b, rfl⟩; exact ⟨a + b, (EReal.coe_add a b).symm⟩
  · exact ⟨0, rfl⟩
  · intro d _
    obtain ⟨a, ha⟩ := feat_real X hX i d
    obtain ⟨b, hb⟩ := feat_real X hX j d
    exact ⟨a * b, by rw [ha, hb, EReal.coe_mul]⟩

/-- Real features give real logits. -/
theorem logitK_real (X : Fin 4096 → Fin 2 → Fin 256 → EReal) (hX : ∀ a b d, ∃ r : ℝ, X a b d = (r : EReal))
    (i j : Fin 8192) : ∃ r : ℝ, logitK X i j = (r : EReal) := by
  unfold logitK
  split
  · exact ⟨_, fill_eq⟩
  · obtain ⟨s, hs⟩ := sim_real X hX i j
    exact ⟨s * (134217728 / 13421773), by rw [hs, invT, EReal.coe_mul]⟩

/-! ## The whole loss -/

/-- On real features the two programs' losses are one extended real. -/
theorem lossK_eq_lossR (X : Fin 4096 → Fin 2 → Fin 256 → EReal) (lab cam : Fin 4096 → BitVec 32)
    (hX : ∀ a b d, ∃ r : ℝ, X a b d = (r : EReal)) : lossK X lab cam = lossR X lab cam := by
  unfold lossK lossR
  congr 1
  refine Finset.sum_congr rfl (fun i _ => ?_)
  unfold lossRowK lossRowR
  rw [logitR_eq_logitK, rowK_eq_rowR _ _ _ (logitK_real X hX i) (exists_pm_posId lab i),
    rowK_eq_rowR _ _ _ (logitK_real X hX i) (exists_pm_posCam lab cam i)]

end Cert.Spec

end
-- ==== Proof.lean ====
/-
  A supervised-contrastive loss with a camera-aware term, computed by a TPU kernel and by a plain reference, is one
  extended real.

  Both programs stack two views of 4096 feature vectors into 8192 rows, form the row-by-row similarities, scale them by
  the inverse temperature, put a large negative fill on the diagonal, and for every row average over its positives off
  the diagonal the cross-entropy term  log (e_p + S) - s_p  (s the logits shifted by the row's maximum, e their
  exponentials, S the sum of e over the non-positives); positives are the rows of equal label, and, for a second term
  weighted one half, of equal label and equal camera.  The loss is the mean of the rows' terms.

  The kernel visits the rows 128 at a time, each time against all 8192 rows, on a pipeline whose query window and key
  window stage one and the same array; it multiplies the similarity by the inverse temperature, which the statement names
  134217728 / 13421773, the reciprocal of the float the reference divides by; it forms the sum of the log terms and the
  sum of the shifts separately and guards the quotient by the positives' count.  The reference divides the similarity by
  that float, sums the differences and divides by the count unguarded.  The two agree on the extended reals when the
  features are finite: then every logit is a real, so the difference of the sums is the sum of the differences, and every
  row has a positive off the diagonal (its own other view), so the guard never binds and the reference never divides
  zero by zero (`Spec.lossK_eq_lossR`).

  The three frames: each kernel program runs as its host prefix, its pipeline and its host suffix, every unscoped buffer
  held at a valuation between them, the shared array's buffer halved between its two windows inside the pipeline
  (`Hand.frame`, the same text at the word-level and at the idealized program); the reference's is its run with the
  result dropped.  The named constant's statement is the idealization's one recorded rewrite.
-/
import proofs.«410527_j80101140070638_3_alg».proof.Defs
import proofs.«410527_j80101140070638_3_alg».proof.Proof.Gen.Kernel
import proofs.«410527_j80101140070638_3_alg».proof.Proof.Gen.Kernel.Skeleton
import proofs.«410527_j80101140070638_3_alg».proof.Proof.Gen.Kernel.Launch
import proofs.«410527_j80101140070638_3_alg».proof.Proof.Gen.Kernel.Points
import proofs.«410527_j80101140070638_3_alg».proof.Proof.Gen.KernelIdeal
import proofs.«410527_j80101140070638_3_alg».proof.Proof.Gen.KernelIdeal.Skeleton
import proofs.«410527_j80101140070638_3_alg».proof.Proof.Gen.KernelIdeal.Launch
import proofs.«410527_j80101140070638_3_alg».proof.Proof.Gen.KernelIdeal.Points
import proofs.«410527_j80101140070638_3_alg».proof.Proof.Gen.ReferenceIdeal
import proofs.«410527_j80101140070638_3_alg».proof.Proof.Gen.Pre_finite_inputs
import proofs.«410527_j80101140070638_3_alg».proof.Proof.Gen.ReferenceIdeal.Run
import proofs.«410527_j80101140070638_3_alg».proof.Proof.Gen.ReferenceIdeal.Read
import proofs.«410527_j80101140070638_3_alg».proof.Proof.KEnds
import proofs.«410527_j80101140070638_3_alg».proof.Proof.KiFinal
import proofs.«410527_j80101140070638_3_alg».proof.Proof.RefSpec
import proofs.«410527_j80101140070638_3_alg».proof.Proof.RowBridge
import Idealize.ShloMosaic.Lib.ReduceAll
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-! ## Finite features are real features -/

/-- An extended real whose absolute value lies strictly below the float infinity is a real. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- Under the precondition every entry of the features array is a real. -/
theorem feats_real (m : (ℓ : Loc Cert.KernelIdeal.nD Cert.KernelIdeal.τ Cert.KernelIdeal.sig) → Buf (Elt Ideal) ℓ)
    (hpre : Cert.Pre_KernelIdeal m) (c : Dev Cert.KernelIdeal.nD) (a : Fin 4096) (b : Fin 2) (d : Fin 256) :
    ∃ r : ℝ, Cert.KernelIdeal.Hand.feats m c a b d = (r : EReal) := by
  have h := congrFun (hpre c) ValueIdx.ix0
  dsimp only [Cert.Pre_finite_inputs.fn] at h
  have hx := Host.reduce_andi_all _ _ _ _ ValueIdx.ix0 h (ValueIdx.ix3 a b d)
  exact real_of_abs_lt _ hx

/-! ## The claims -/

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: the scale 10.0 named the reciprocal of the reference's divisor. -/
theorem preserves : Cert.preserves_Kernel_KernelIdeal :=
  IdealRules.named_const.statement Cert.KernelIdeal.κ "inv_temp" .f32 0x41200000#32 ((134217728 / 13421773 : ℝ) : EReal) rfl

/-- From memories agreeing on the arguments the idealized kernel returns `Spec.lossK` and the idealized reference
    `Spec.lossR` of the same features, labels and camera ids: one extended real, the features being finite. -/
theorem algebraic : Cert.algebraic_KernelIdeal_ReferenceIdeal := by
  intro m ρ m' ρ' hpre hagree
  refine ⟨fun c => fun _ => Cert.Spec.lossK (Cert.KernelIdeal.Hand.feats m c) (Cert.KernelIdeal.Hand.labs m c) (Cert.KernelIdeal.Hand.cams m c),
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v81_eq, Cert.RefSpec.ref_value, (hagree c).1, (hagree c).2.1, (hagree c).2.2]
  funext _
  exact (Cert.Spec.lossK_eq_lossR _ _ _ (feats_real m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
